-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S1x128 : Shape := ⟨2, ![1, 128]⟩
abbrev S10000x128 : Shape := ⟨2, ![10000, 128]⟩
abbrev S128x64 : Shape := ⟨2, ![128, 64]⟩
abbrev S1x64 : Shape := ⟨2, ![1, 64]⟩
abbrev S50000x64 : Shape := ⟨2, ![50000, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 71
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S50000x128, .f32⟩
  | .hbm, ⟨36, _⟩ => ⟨S640000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .bf16⟩
  | .hbm, ⟨41, _⟩ => ⟨S50000x128, .bf16⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S128x128, .bf16⟩
  | .hbm, ⟨46, _⟩ => ⟨S1x128, .f32⟩
  | .hbm, ⟨47, _⟩ => ⟨S50000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S50000x128, .f32⟩
  | .hbm, ⟨59, _⟩ => ⟨S640000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .bf16⟩
  | .hbm, ⟨64, _⟩ => ⟨S50000x128, .bf16⟩
  | .hbm, ⟨65, _⟩ => ⟨S128x64, .f32⟩
  | .hbm, ⟨66, _⟩ => ⟨S128x64, .bf16⟩
  | .hbm, ⟨67, _⟩ => ⟨S128x64, .f32⟩
  | .hbm, ⟨68, _⟩ => ⟨S128x64, .bf16⟩
  | .hbm, ⟨69, _⟩ => ⟨S1x64, .f32⟩
  | .hbm, ⟨70, _⟩ => ⟨S50000x64, .f32⟩
  | .local _ .vmem, ⟨0, _⟩ => ⟨S10000x128, .bf16⟩
  | .local _ .vmem, ⟨1, _⟩ => ⟨S10000x128, .bf16⟩
  | .local _ .vmem, ⟨2, _⟩ => ⟨S10000x128, .bf16⟩
  | .local _ .vmem, ⟨3, _⟩ => ⟨S10000x128, .bf16⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S10000x128, .f32⟩
  | .local _ .vmem, ⟨8, _⟩ => ⟨S10000x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S10000x128, .bf16⟩
  | .local _ .vmem, ⟨13, _⟩ => ⟨S128x64, .bf16⟩
  | .local _ .vmem, ⟨14, _⟩ => ⟨S1x64, .f32⟩
  | .local _ .vmem, ⟨15, _⟩ => ⟨S128x64, .bf16⟩
  | .local _ .vmem, ⟨16, _⟩ => ⟨S10000x64, .f32⟩
  | .local _ .vmem, ⟨17, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bitsLt_bf16_f32 : FTy.bits .bf16 < FTy.bits .f32
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .bf16 = 32 ∨ (Rect.block (s := S50000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .bf16 = 32 ∨ (Rect.block (s := S50000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v25) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S50000x128, .f32⟩
  | .hbm, ⟨59, _⟩ => ⟨S640000x1, .i32⟩
  | .hbm, ⟨60, _⟩ => ⟨S50000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S50000, .f32⟩
  | .hbm, ⟨65, _⟩ => ⟨S640000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S128x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x64, .f32⟩
  | .hbm, ⟨95, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The two-layer mean-aggregation network both programs compute, written once on the extended reals and free of
  either program's text.

  One row of a layer: with `a` the row of aggregated neighbour features, `x` the row of the node's own features,
  `wl`, `wr` one output unit's two weight rows and `b` its bias, the pre-activation is `(Σ a·wl + b) + Σ x·wr`.
  The aggregated row is the neighbourhood sum divided by the in-degree clamped below at one.  Layer one applies
  `max · 0`; layer two the row-wise log-softmax, `(z − M) − log Σ exp (z − M)` with `M` the row's maximum taken from −∞.

  The kernel and the reference differ in two groupings only, and both are identities on the extended reals with no
  finiteness needed: the kernel multiplies the neighbourhood sum by the reciprocal `1 / max d 1` where the reference
  divides by `max d 1` (the divisor is at least one, so never zero, and the quotient is the product with the inverse
  at the infinities too), and the kernel adds the bias last where the reference adds it between the two sums
  (addition is commutative and associative).

  The neighbourhood sum itself (a row gather followed by a scatter-add over the edge list) and the in-degree are the
  same host operations in both programs; here they are the parameters `Sop` and `deg`.
-/
import Idealize.ShloMosaic.PureOps.Ideal.Laws
import Idealize.ShloMosaic.Lib.IdealHost
import Idealize.ShloMosaic.Lib.ValueIdx

noncomputable section

open scoped BigOperators

namespace Cert.Sage

open Idealize.ShloMosaic Idealize.ShloMosaic.ValueIdx

/-- The three float words the programs print, as extended reals: 0, 1 and −∞. -/
abbrev zeroW : EReal := Ideal.ofBits .f32 0x00000000#32
abbrev oneW : EReal := Ideal.ofBits .f32 0x3F800000#32
abbrev ninfW : EReal := Ideal.ofBits .f32 0xFF800000#32

theorem oneW_eq : oneW = 1 := Ideal.ofBits_one_f32

/-- A degree clamped below at one is never zero. -/
theorem clamp_ne_zero (d : EReal) : max d oneW ≠ 0 := by
  rw [oneW_eq]
  exact (lt_of_lt_of_le zero_lt_one (le_max_right d 1)).ne'

/-- The mean of a neighbourhood sum `s` over the in-degree `d` clamped below at one (the reference's quotient). -/
def mean (s d : EReal) : EReal := Ideal.div s (max d oneW)

/-- The kernel's product with the reciprocal of the clamped degree is that quotient, at the infinities too. -/
theorem mul_recip_eq_mean (s d : EReal) : s * Ideal.div oneW (max d oneW) = mean s d := by
  unfold mean Ideal.div
  rw [if_neg (clamp_ne_zero d), if_neg (clamp_ne_zero d), oneW_eq, one_mul]

/-- One unit's pre-activation on one row, in the reference's grouping `(Σ a·wl + b) + Σ x·wr`. -/
def pre {K : ℕ} (a x wl wr : Fin K → EReal) (b : EReal) : EReal :=
  ((∑ k, a k * wl k) + b) + ∑ k, x k * wr k

/-- The kernel's grouping `(Σ a·wl + Σ x·wr) + b` is the same sum. -/
theorem pre_kernel {K : ℕ} (a x wl wr : Fin K → EReal) (b : EReal) :
    ((∑ k, a k * wl k) + ∑ k, x k * wr k) + b = pre a x wl wr b :=
  add_right_comm _ _ _

/-- A row's maximum as both programs take it: the fold of `max` from −∞, then once more against −∞. -/
def rowMax {J : ℕ} (z : Fin J → EReal) : EReal := max ninfW (Finset.univ.fold max ninfW z)

/-- The log-softmax of a row `z` at `j`. -/
def logSoftmax {J : ℕ} (z : Fin J → EReal) (j : Fin J) : EReal :=
  (z j - rowMax z) - Ideal.log (∑ j', Ideal.exp (z j' - rowMax z))

/-! ## The arrays -/

abbrev SN128 : Shape := ⟨2, ![50000, 128]⟩
abbrev SN64 : Shape := ⟨2, ![50000, 64]⟩
abbrev SN : Shape := ⟨1, ![50000]⟩
abbrev S128x128 : Shape := ⟨2, ![128, 128]⟩
abbrev S64x128 : Shape := ⟨2, ![64, 128]⟩
abbrev S128 : Shape := ⟨1, ![128]⟩
abbrev S64 : Shape := ⟨1, ![64]⟩

/-- Unit `j`'s pre-activation on node `r`: `S` the neighbourhood sums, `D` the in-degrees, `X` the node features,
    `Wl`, `Wr` the two weight matrices (one row per unit) and `b` the bias. -/
def preAt {J : ℕ} (S X : SN128.Idx → EReal) (D : SN.Idx → EReal)
    (Wl Wr : (⟨2, ![J, 128]⟩ : Shape).Idx → EReal) (b : (⟨1, ![J]⟩ : Shape).Idx → EReal) (r : Fin 50000) (j : Fin J) : EReal :=
  pre (fun k : Fin 128 => mean (S (ix2 r k)) (D (ix1 r))) (fun k : Fin 128 => X (ix2 r k))
    (fun k : Fin 128 => Wl (ix2 j k)) (fun k : Fin 128 => Wr (ix2 j k)) (b (ix1 j))

/-- Layer one at node `r`, unit `j`. -/
def layer1At (S X : SN128.Idx → EReal) (D : SN.Idx → EReal) (Wl Wr : S128x128.Idx → EReal) (b : S128.Idx → EReal)
    (r : Fin 50000) (j : Fin 128) : EReal :=
  max (preAt S X D Wl Wr b r j) zeroW

/-- Layer one as an array. -/
def layer1 (S X : SN128.Idx → EReal) (D : SN.Idx → EReal) (Wl Wr : S128x128.Idx → EReal) (b : S128.Idx → EReal) :
    SN128.Idx → EReal :=
  fun i => layer1At S X D Wl Wr b (i 0) (i 1)

theorem layer1_apply (S X : SN128.Idx → EReal) (D : SN.Idx → EReal) (Wl Wr : S128x128.Idx → EReal) (b : S128.Idx → EReal)
    (r : Fin 50000) (j : Fin 128) : layer1 S X D Wl Wr b (ix2 r j) = layer1At S X D Wl Wr b r j := rfl

/-- Layer two with its log-softmax at node `r`, class `j`. -/
def layer2At (S H : SN128.Idx → EReal) (D : SN.Idx → EReal) (Wl Wr : S64x128.Idx → EReal) (b : S64.Idx → EReal)
    (r : Fin 50000) (j : Fin 64) : EReal :=
  logSoftmax (fun j' : Fin 64 => preAt S H D Wl Wr b r j') j

/-- Layer two as an array. -/
def layer2 (S H : SN128.Idx → EReal) (D : SN.Idx → EReal) (Wl Wr : S64x128.Idx → EReal) (b : S64.Idx → EReal) :
    SN64.Idx → EReal :=
  fun i => layer2At S H D Wl Wr b (i 0) (i 1)

theorem layer2_apply (S H : SN128.Idx → EReal) (D : SN.Idx → EReal) (Wl Wr : S64x128.Idx → EReal) (b : S64.Idx → EReal)
    (r : Fin 50000) (j : Fin 64) : layer2 S H D Wl Wr b (ix2 r j) = layer2At S H D Wl Wr b r j := rfl

/-- The whole network: `Sop` takes a feature array to its neighbourhood sums, `deg` is the in-degree. -/
def network (Sop : (SN128.Idx → EReal) → (SN128.Idx → EReal)) (deg : SN.Idx → EReal) (x : SN128.Idx → EReal)
    (W1l : S128x128.Idx → EReal) (b1 : S128.Idx → EReal) (W1r : S128x128.Idx → EReal)
    (W2l : S64x128.Idx → EReal) (b2 : S64.Idx → EReal) (W2r : S64x128.Idx → EReal) : SN64.Idx → EReal :=
  layer2 (Sop (layer1 (Sop x) x deg W1l W1r b1)) (layer1 (Sop x) x deg W1l W1r b1) deg W2l W2r b2

end Cert.Sage

end
-- ==== Proof.Pay.lean ====
/-
  The two kernel bodies' stored values read at one element.  Row `p` of a block, unit `j`: the body's two matrix
  products into zero accumulators are the sums over the 128 features of the row's entries times the weight
  column, the bias row is broadcast down the block, and layer one closes with `max · 0`, layer two with the
  row's log-softmax (the lane maximum from −∞, the lane sum of the exponentials).
-/
import proofs.«112490_j9113920602386_1_alg».proof.Proof.Gen.KernelIdeal.Skeleton
import proofs.«112490_j9113920602386_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The two matrix products at an index -/

private theorem lhs0_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
private theorem lhs0_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhs0_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhs0_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A product of a `[10000, 128]` block with a `[128, 128]` weight block into the zero accumulator reads, at row `p`
    and column `j`, the sum over the 128 features of the row's entries times the column's. -/
private theorem mm0 (a : FVec Ideal S10000x128 .bf16) (w : FVec Ideal S128x128 .bf16) (p : Fin 10000) (j : Fin 128) :
    matmul (F := Ideal) dot_S10000x128_S128x128_S10000x128_1_0_0_1_n_n none a w (constant (F := Ideal) S10000x128 .f32 0x00000000#32) (ix2 p j)
      = ∑ k : Fin 128, a (ix2 p k) * w (ix2 k j) := by
  refine (Ideal.matmul_constant_zero_apply dot_S10000x128_S128x128_S10000x128_1_0_0_1_n_n none a w (ix2 p j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p j) ((contrEquiv1 dot_S10000x128_S128x128_S10000x128_1_0_0_1_n_n 128 rfl rfl).symm k) = ix2 p k :=
    funext fun c => Fin.ext (by
      match c with
      | ⟨0, _⟩ => exact lhs0_0 _ _
      | ⟨1, _⟩ => exact (lhs0_1 _ _).trans hk)
  have er : dot_S10000x128_S128x128_S10000x128_1_0_0_1_n_n.rhsIdx (ix2 p j) ((contrEquiv1 dot_S10000x128_S128x128_S10000x128_1_0_0_1_n_n 128 rfl rfl).symm k) = ix2 k j :=
    funext fun c => Fin.ext (by
      match c with
      | ⟨0, _⟩ => exact (rhs0_0 _ _).trans hk
      | ⟨1, _⟩ => exact rhs0_1 _ _)
  rw [el, er]

private theorem lhs1_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
private theorem lhs1_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
private theorem rhs1_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
private theorem rhs1_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- A product of a `[10000, 128]` block with a `[128, 64]` weight block into the zero accumulator reads, at row `p`
    and column `j`, the sum over the 128 features of the row's entries times the column's. -/
private theorem mm1 (a : FVec Ideal S10000x128 .bf16) (w : FVec Ideal S128x64 .bf16) (p : Fin 10000) (j : Fin 64) :
    matmul (F := Ideal) dot_S10000x128_S128x64_S10000x64_1_0_0_1_n_n none a w (constant (F := Ideal) S10000x64 .f32 0x00000000#32) (ix2 p j)
      = ∑ k : Fin 128, a (ix2 p k) * w (ix2 k j) := by
  refine (Ideal.matmul_constant_zero_apply dot_S10000x128_S128x64_S10000x64_1_0_0_1_n_n none a w (ix2 p j)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p j) ((contrEquiv1 dot_S10000x128_S128x64_S10000x64_1_0_0_1_n_n 128 rfl rfl).symm k) = ix2 p k :=
    funext fun c => Fin.ext (by
      match c with
      | ⟨0, _⟩ => exact lhs1_0 _ _
      | ⟨1, _⟩ => exact (lhs1_1 _ _).trans hk)
  have er : dot_S10000x128_S128x64_S10000x64_1_0_0_1_n_n.rhsIdx (ix2 p j) ((contrEquiv1 dot_S10000x128_S128x64_S10000x64_1_0_0_1_n_n 128 rfl rfl).symm k) = ix2 k j :=
    funext fun c => Fin.ext (by
      match c with
      | ⟨0, _⟩ => exact (rhs1_0 _ _).trans hk
      | ⟨1, _⟩ => exact rhs1_1 _ _)
  rw [el, er]

/-! ## Two keepdims layout readings -/

section Layout
variable {α : Type}

/-- A length-`a` vector viewed as an `[a, 1]` column reads, at `(i, u)`, the vector at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The part the two layers share, as the body writes it: the two products added, then the bias row added down the block. -/
private def dense0 (v0 v2 : FVec Ideal S10000x128 .bf16) (v4 v6 : FVec Ideal S128x128 .bf16) (v8 : FVec Ideal S1x128 .f32) :
    FVec Ideal S10000x128 .f32 :=
  addf
    (addf
      (matmul (F := Ideal) dot_S10000x128_S128x128_S10000x128_1_0_0_1_n_n none (shapeCast S10000x128 v2 shapeCasts_S10000x128_S10000x128)
        (shapeCast S128x128 v4 shapeCasts_S128x128_S128x128) (constant (F := Ideal) S10000x128 .f32 0x00000000#32))
      (matmul (F := Ideal) dot_S10000x128_S128x128_S10000x128_1_0_0_1_n_n none (shapeCast S10000x128 v0 shapeCasts_S10000x128_S10000x128)
        (shapeCast S128x128 v6 shapeCasts_S128x128_S128x128) (constant (F := Ideal) S10000x128 .f32 0x00000000#32)))
    (broadcastTo S10000x128 (shapeCast S1x128 v8 shapeCasts_S1x128_S1x128) broadcasts_S1x128_S10000x128)

/-- At row `p`, unit `j`: the aggregated row against the left weights plus the row's own features against the right
    weights, plus the unit's bias. -/
private theorem dense0_apply (v0 v2 : FVec Ideal S10000x128 .bf16) (v4 v6 : FVec Ideal S128x128 .bf16) (v8 : FVec Ideal S1x128 .f32)
    (p : Fin 10000) (j : Fin 128) :
    dense0 v0 v2 v4 v6 v8 (ix2 p j)
      = ((∑ k : Fin 128, v2 (ix2 p k) * v4 (ix2 k j)) + (∑ k : Fin 128, v0 (ix2 p k) * v6 (ix2 k j)))
          + v8 (ix2 (0 : Fin 1) j) := by
  unfold dense0
  rw [shapeCast_self, shapeCast_self, shapeCast_self, shapeCast_self, shapeCast_self]
  refine (addf_apply _ _ _).trans ?_
  refine congrArg₂ (· + ·) ((addf_apply _ _ _).trans (congrArg₂ (· + ·) (mm0 v2 v4 p j) (mm0 v0 v6 p j))) ?_
  exact broadcastTo_1b_ab_apply v8 broadcasts_S1x128_S10000x128 p j

/-- The part the two layers share, as the body writes it: the two products added, then the bias row added down the block. -/
private def dense1 (v0 v2 : FVec Ideal S10000x128 .bf16) (v4 v6 : FVec Ideal S128x64 .bf16) (v8 : FVec Ideal S1x64 .f32) :
    FVec Ideal S10000x64 .f32 :=
  addf
    (addf
      (matmul (F := Ideal) dot_S10000x128_S128x64_S10000x64_1_0_0_1_n_n none (shapeCast S10000x128 v2 shapeCasts_S10000x128_S10000x128)
        (shapeCast S128x64 v4 shapeCasts_S128x64_S128x64) (constant (F := Ideal) S10000x64 .f32 0x00000000#32))
      (matmul (F := Ideal) dot_S10000x128_S128x64_S10000x64_1_0_0_1_n_n none (shapeCast S10000x128 v0 shapeCasts_S10000x128_S10000x128)
        (shapeCast S128x64 v6 shapeCasts_S128x64_S128x64) (constant (F := Ideal) S10000x64 .f32 0x00000000#32)))
    (broadcastTo S10000x64 (shapeCast S1x64 v8 shapeCasts_S1x64_S1x64) broadcasts_S1x64_S10000x64)

/-- At row `p`, unit `j`: the aggregated row against the left weights plus the row's own features against the right
    weights, plus the unit's bias. -/
private theorem dense1_apply (v0 v2 : FVec Ideal S10000x128 .bf16) (v4 v6 : FVec Ideal S128x64 .bf16) (v8 : FVec Ideal S1x64 .f32)
    (p : Fin 10000) (j : Fin 64) :
    dense1 v0 v2 v4 v6 v8 (ix2 p j)
      = ((∑ k : Fin 128, v2 (ix2 p k) * v4 (ix2 k j)) + (∑ k : Fin 128, v0 (ix2 p k) * v6 (ix2 k j)))
          + v8 (ix2 (0 : Fin 1) j) := by
  unfold dense1
  rw [shapeCast_self, shapeCast_self, shapeCast_self, shapeCast_self, shapeCast_self]
  refine (addf_apply _ _ _).trans ?_
  refine congrArg₂ (· + ·) ((addf_apply _ _ _).trans (congrArg₂ (· + ·) (mm1 v2 v4 p j) (mm1 v0 v6 p j))) ?_
  exact broadcastTo_1b_ab_apply v8 broadcasts_S1x64_S10000x64 p j

/-! ## Layer two's closing: the row-wise log-softmax -/

/-- The lane maximum of a `[10000, 64]` block from −∞, at row `p`: the fold of `max` over the row's 64 entries. -/
private theorem laneMax_apply (x : FVec Ideal S10000x64 .f32) (p : Fin 10000) :
    multiReduction (F := Ideal) .maximumf [1] S10000 x 0xFF800000#32 reduces_S10000x64_S10000 (.inl rfl) rfl (ix1 p)
      = (Finset.univ : Finset (Fin 64)).fold max Sage.ninfW (fun k : Fin 64 => x (ix2 p k)) := by
  refine (Ideal.multiReduction_maximumf_single x 0xFF800000#32 reduces_S10000x64_S10000 (.inl rfl) rfl (ix1 p)).trans ?_
  have hl : (x ∘ reduces_S10000x64_S10000.lift (ix1 p)) = fun k : Fin 64 => x (ix2 p k) :=
    funext fun k => congrArg x (funext fun c => Fin.ext (by
      match c with
      | ⟨0, _⟩ => rfl
      | ⟨1, _⟩ => rfl))
  exact congrArg (fun f : Fin 64 → EReal => (Finset.univ : Finset (Fin 64)).fold max Sage.ninfW f) hl

/-- The lane sum of a `[10000, 64]` block from zero, at row `p`: the sum of the row's 64 entries. -/
private theorem laneSum_apply (x : FVec Ideal S10000x64 .f32) (p : Fin 10000) :
    multiReduction (F := Ideal) .add [1] S10000 x 0x00000000#32 reduces_S10000x64_S10000 (.inl rfl) rfl (ix1 p)
      = ∑ k : Fin 64, x (ix2 p k) := by
  refine (Ideal.multiReduction_add_single x 0x00000000#32 reduces_S10000x64_S10000 (.inl rfl) rfl (ix1 p)).trans ?_
  refine Finset.sum_congr rfl fun k _ => ?_
  exact congrArg x (funext fun c => Fin.ext (by
    match c with
    | ⟨0, _⟩ => rfl
    | ⟨1, _⟩ => rfl))

/-- The row maxima, taken once more against −∞, as a column spread back over the 64 lanes. -/
private def maxCol (x : FVec Ideal S10000x64 .f32) : FVec Ideal S10000x64 .f32 :=
  broadcastTo S10000x64
    (shapeCast S10000x1
      (maximumf (broadcast S10000 (Scalar.ofBits (F := Ideal) .f32 0xFF800000#32))
        (multiReduction (F := Ideal) .maximumf [1] S10000 x 0xFF800000#32 reduces_S10000x64_S10000 (.inl rfl) rfl))
      shapeCasts_S10000_S10000x1)
    broadcasts_S10000x1_S10000x64

private theorem maxCol_apply (x : FVec Ideal S10000x64 .f32) (p : Fin 10000) (j : Fin 64) :
    maxCol x (ix2 p j) = Sage.rowMax (fun k : Fin 64 => x (ix2 p k)) := by
  unfold maxCol
  refine (broadcastTo_a1_ab_apply _ broadcasts_S10000x1_S10000x64 p j).trans ?_
  refine (shapeCast_a_a1_apply _ shapeCasts_S10000_S10000x1 p (0 : Fin 1)).trans ?_
  refine (maximumf_apply _ _ _).trans ?_
  exact congrArg₂ max rfl (laneMax_apply x p)

/-- The logarithms of the row sums, as a column spread back over the 64 lanes. -/
private def logCol (y : FVec Ideal S10000x64 .f32) : FVec Ideal S10000x64 .f32 :=
  broadcastTo S10000x64
    (log
      (shapeCast S10000x1
        (multiReduction (F := Ideal) .add [1] S10000 y 0x00000000#32 reduces_S10000x64_S10000 (.inl rfl) rfl)
        shapeCasts_S10000_S10000x1))
    broadcasts_S10000x1_S10000x64

private theorem logCol_apply (y : FVec Ideal S10000x64 .f32) (p : Fin 10000) (j : Fin 64) :
    logCol y (ix2 p j) = Ideal.log (∑ k : Fin 64, y (ix2 p k)) := by
  unfold logCol
  refine (broadcastTo_a1_ab_apply _ broadcasts_S10000x1_S10000x64 p j).trans ?_
  show Ideal.log (shapeCast S10000x1
      (multiReduction (F := Ideal) .add [1] S10000 y 0x00000000#32 reduces_S10000x64_S10000 (.inl rfl) rfl)
      shapeCasts_S10000_S10000x1 (ix2 p (0 : Fin 1))) = _
  refine congrArg Ideal.log ?_
  refine (shapeCast_a_a1_apply _ shapeCasts_S10000_S10000x1 p (0 : Fin 1)).trans ?_
  exact laneSum_apply y p

/-- Layer two's closing as the body writes it over the dense part `x`. -/
private def closing (x : FVec Ideal S10000x64 .f32) : FVec Ideal S10000x64 .f32 :=
  subf (subf x (maxCol x)) (logCol (exp (subf x (maxCol x))))

private theorem closing_apply (x : FVec Ideal S10000x64 .f32) (p : Fin 10000) (j : Fin 64) :
    closing x (ix2 p j) = Sage.logSoftmax (fun k : Fin 64 => x (ix2 p k)) j := by
  unfold closing Sage.logSoftmax
  refine (subf_apply _ _ _).trans ?_
  refine congrArg₂ (· - ·) ((subf_apply _ _ _).trans (congrArg (x (ix2 p j) - ·) (maxCol_apply x p j))) ?_
  refine (logCol_apply _ p j).trans (congrArg Ideal.log (Finset.sum_congr rfl fun k _ => ?_))
  show Ideal.exp (x (ix2 p k) - maxCol x (ix2 p k)) = _
  rw [maxCol_apply]

/-! ## The two stored values -/

/-- Layer one's stored value at row `p`, unit `j` of a block. -/
theorem pay0_apply (v0 v2 : FVec Ideal S10000x128 .bf16) (v4 v6 : FVec Ideal S128x128 .bf16) (v8 : FVec Ideal S1x128 .f32)
    (p : Fin 10000) (j : Fin 128) :
    k0_pay1 (F := Ideal) v0 v2 v4 v6 v8 (ix2 p j)
      = max (((∑ k : Fin 128, v2 (ix2 p k) * v4 (ix2 k j)) + (∑ k : Fin 128, v0 (ix2 p k) * v6 (ix2 k j)))
          + v8 (ix2 (0 : Fin 1) j)) Sage.zeroW := by
  have e : k0_pay1 (F := Ideal) v0 v2 v4 v6 v8
      = maximumf (dense0 v0 v2 v4 v6 v8) (broadcast S10000x128 (Scalar.ofBits (F := Ideal) .f32 0x00000000#32)) := rfl
  rw [e]
  refine (maximumf_apply _ _ _).trans ?_
  exact congrArg₂ max (dense0_apply v0 v2 v4 v6 v8 p j) rfl

/-- Layer two's stored value at row `p`, class `j` of a block. -/
theorem pay1_apply (v0 v2 : FVec Ideal S10000x128 .bf16) (v4 v6 : FVec Ideal S128x64 .bf16) (v8 : FVec Ideal S1x64 .f32)
    (p : Fin 10000) (j : Fin 64) :
    k1_pay1 (F := Ideal) v0 v2 v4 v6 v8 (ix2 p j)
      = Sage.logSoftmax (fun j' : Fin 64 =>
          ((∑ k : Fin 128, v2 (ix2 p k) * v4 (ix2 k j')) + (∑ k : Fin 128, v0 (ix2 p k) * v6 (ix2 k j')))
            + v8 (ix2 (0 : Fin 1) j')) j := by
  have e : k1_pay1 (F := Ideal) v0 v2 v4 v6 v8 = closing (dense1 v0 v2 v4 v6 v8) := rfl
  rw [e]
  refine (closing_apply _ p j).trans ?_
  exact congrArg (fun z : Fin 64 → EReal => Sage.logSoftmax z j) (funext fun j' => dense1_apply v0 v2 v4 v6 v8 p j')

end Cert.KernelIdeal.Pay

end
-- ==== Proof.Region.lean ====
/-
  What each of the two kernel launches leaves in its output array, as one function of the arrays the launch finds.
  The grid has five points; point `t` stages rows `10000·t … 10000·t + 9999` of the two row-indexed inputs and of the
  output, and the whole of the two weight matrices and the bias row.  So row `r` of the output is the body's value on
  row `r` of the inputs, and the five blocks tile the 50000 rows.
-/
import proofs.«112490_j9113920602386_1_alg».proof.Proof.Gen.KernelIdeal.Frame
import proofs.«112490_j9113920602386_1_alg».proof.Proof.Pay
import Idealize.ShloMosaic.Lib.Pipeline.Value
import Idealize.ShloMosaic.Lib.ValueIdx

set_option maxRecDepth 16384

noncomputable section

open scoped BigOperators

namespace Cert.KernelIdeal.Region

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## Rows and blocks -/

/-- The zero offsets of a whole-block access, as the constant function. -/
theorem zero_offsets : (![0, 0] : Fin 2 → Nat) = fun _ => 0 := funext fun a => by fin_cases a <;> rfl

/-- Row `p` of the `t`-th block of 10000 rows is row `10000·t + p` of the 50000. -/
def rowOf (t : Fin 5) (p : Fin 10000) : Fin 50000 := ⟨10000 * t.val + p.val, by omega⟩

/-! ## Launch 0 (layer one) -/

/-- The arrays launch 0 reads, at their literal types: node features, aggregated features, the two transposed weight
    matrices and the bias row. -/
abbrev feat0 (c : Dev nD) : FVec Ideal S50000x128 .bf16 := V c main_v25
abbrev agg0 (c : Dev nD) : FVec Ideal S50000x128 .bf16 := V c main_v26
abbrev wl0 (c : Dev nD) : FVec Ideal S128x128 .bf16 := V c main_v28
abbrev bias0 (c : Dev nD) : FVec Ideal S1x128 .f32 := V c main_v31
abbrev wr0 (c : Dev nD) : FVec Ideal S128x128 .bf16 := V c main_v30

/-- Layer one's output array from the arrays launch 0 finds. -/
def hidden (c : Dev nD) : FVec Ideal S50000x128 .f32 := fun i =>
  max (((∑ k : Fin 128, agg0 V c (ix2 (i 0) k) * wl0 V c (ix2 k (i 1)))
        + (∑ k : Fin 128, feat0 V c (ix2 (i 0) k) * wr0 V c (ix2 k (i 1))))
      + bias0 V c (ix2 (0 : Fin 1) (i 1))) Sage.zeroW

/-- The block indices of launch 0 over its five points: the two row-indexed inputs and the output sit at row-block
    `t`, column-block 0; the two weight matrices and the bias row at block (0, 0). -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s block of the node features is rows `10000·t …` of the array. -/
theorem featBlk0 (c : Dev nD) (t : Fin cfg0.N) (p : Fin 10000) (k : Fin 128) :
    (iblk0 V c 0 t : FVec Ideal S10000x128 .bf16) (ix2 p k) = feat0 V c (ix2 (rowOf (t.cast N_0) p) k) := by
  obtain ⟨e0, e1, -⟩ := blockIdx0 t
  unfold iblk0
  rw [View.read_apply]
  show V c main_v25 (((cfg0.win 0).blk t).view.emb (ix2 p k)) = V c main_v25 _
  congr 1
  funext a; apply Fin.ext
  match a with
  | ⟨0, _⟩ => show win0_0.index t (0 : Fin 2) * 10000 + 1 * p.val = 10000 * t.val + p.val; omega
  | ⟨1, _⟩ => show win0_0.index t (1 : Fin 2) * 128 + 1 * k.val = k.val; omega

/-- Point `t`'s block of the aggregated features is rows `10000·t …` of the array. -/
theorem aggBlk0 (c : Dev nD) (t : Fin cfg0.N) (p : Fin 10000) (k : Fin 128) :
    (iblk0 V c 1 t : FVec Ideal S10000x128 .bf16) (ix2 p k) = agg0 V c (ix2 (rowOf (t.cast N_0) p) k) := by
  obtain ⟨-, -, e0, e1, -⟩ := blockIdx0 t
  unfold iblk0
  rw [View.read_apply]
  show V c main_v26 (((cfg0.win 1).blk t).view.emb (ix2 p k)) = V c main_v26 _
  congr 1
  funext a; apply Fin.ext
  match a with
  | ⟨0, _⟩ => show win0_1.index t (0 : Fin 2) * 10000 + 1 * p.val = 10000 * t.val + p.val; omega
  | ⟨1, _⟩ => show win0_1.index t (1 : Fin 2) * 128 + 1 * k.val = k.val; omega

/-- Every point's block of the left weights is the whole matrix. -/
theorem wlBlk0 (c : Dev nD) (t : Fin cfg0.N) (k q : Fin 128) :
    (iblk0 V c 2 t : FVec Ideal S128x128 .bf16) (ix2 k q) = wl0 V c (ix2 k q) := by
  obtain ⟨-, -, -, -, e0, e1, -⟩ := blockIdx0 t
  unfold iblk0
  rw [View.read_apply]
  show V c main_v28 (((cfg0.win 2).blk t).view.emb (ix2 k q)) = V c main_v28 _
  congr 1
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- Every point's block of the bias is the whole row. -/
theorem biasBlk0 (c : Dev nD) (t : Fin cfg0.N) (z : Fin 1) (q : Fin 128) :
    (iblk0 V c 3 t : FVec Ideal S1x128 .f32) (ix2 z q) = bias0 V c (ix2 z q) := by
  obtain ⟨-, -, -, -, -, -, e0, e1, -⟩ := blockIdx0 t
  unfold iblk0
  rw [View.read_apply]
  show V c main_v31 (((cfg0.win 3).blk t).view.emb (ix2 z q)) = V c main_v31 _
  congr 1
  funext a; apply Fin.ext
  match a with
  | ⟨0, _⟩ => show win0_3.index t (0 : Fin 2) * 1 + 1 * z.val = z.val; omega
  | ⟨1, _⟩ => show win0_3.index t (1 : Fin 2) * 128 + 1 * q.val = q.val; omega

/-- Every point's block of the right weights is the whole matrix. -/
theorem wrBlk0 (c : Dev nD) (t : Fin cfg0.N) (k q : Fin 128) :
    (iblk0 V c 4 t : FVec Ideal S128x128 .bf16) (ix2 k q) = wr0 V c (ix2 k q) := by
  obtain ⟨-, -, -, -, -, -, -, -, e0, e1, -⟩ := blockIdx0 t
  unfold iblk0
  rw [View.read_apply]
  show V c main_v30 (((cfg0.win 4).blk t).view.emb (ix2 k q)) = V c main_v30 _
  congr 1
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- Entry `(p, q)` of point `t`'s output block is entry `(10000·t + p, q)` of the output array. -/
theorem outIdx0 (t : Fin cfg0.N) (p : Fin 10000) (q : Fin 128) :
    (((cfg0.win 5).blk t).view.emb (ix2 p q) : S50000x128.Idx) = ix2 (rowOf (t.cast N_0) p) q := by
  obtain ⟨-, -, -, -, -, -, -, -, -, -, e0, e1⟩ := blockIdx0 t
  funext a; apply Fin.ext
  match a with
  | ⟨0, _⟩ => show win0_5.index t (0 : Fin 2) * 10000 + 1 * p.val = 10000 * t.val + p.val; omega
  | ⟨1, _⟩ => show win0_5.index t (1 : Fin 2) * 128 + 1 * q.val = q.val; omega

/-- What point `t` writes back is its block of `hidden`: the body's value on the point's rows of the inputs. -/
theorem flushed0 (c : Dev nD) (t : Fin cfg0.N) :
    (dat0 (F := Ideal) V c).flushed 5 t = ((cfg0.win 5).blk t).view.read (Elt Ideal) (hidden V c) := by
  show (cfg0.win 5).cut (grid0.coords t) ((dat0 (F := Ideal) V c).after 5 t) = _
  rw [after0_5]
  unfold out0_5
  rw [View.canon_unit_zero zero_offsets]
  simp only [View.ld_unit_zero (S := S10000x128) zero_offsets, View.ld_unit_zero (S := S128x128) zero_offsets,
    View.ld_unit_zero (S := S1x128) zero_offsets]
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = hidden V c (((cfg0.win 5).blk t).view.emb (ix2 p q))
  refine Eq.trans ?_ (congrArg (hidden V c) (outIdx0 t p q).symm)
  refine (Pay.pay0_apply (iblk0 V c 0 t) (iblk0 V c 1 t) (iblk0 V c 2 t) (iblk0 V c 4 t) (iblk0 V c 3 t) p q).trans ?_
  show _ = max (((∑ k : Fin 128, agg0 V c (ix2 (rowOf (t.cast N_0) p) k) * wl0 V c (ix2 k q))
        + (∑ k : Fin 128, feat0 V c (ix2 (rowOf (t.cast N_0) p) k) * wr0 V c (ix2 k q)))
      + bias0 V c (ix2 (0 : Fin 1) q)) Sage.zeroW
  simp only [featBlk0 V c t, aggBlk0 V c t, wlBlk0 V c t, wrBlk0 V c t, biasBlk0 V c t]

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v32).slice (win0_5.rect t)).set ↔ _
  rw [View.set_slice_whole, Rect.mem_set_unit]
  exact Iff.rfl

/-- The five blocks tile the rows: row `r` is in the block of point `r / 10000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, -, -, -, -, -, -, e0, e1⟩ := blockIdx0 t
  refine ⟨t, flush0_5 t, ?_⟩
  rw [mem_blk0]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 128 ≤ (i 1).val ∧ (i 1).val < win0_5.index t (1 : Fin 2) * 128 + 128
    omega

/-- Launch 0 leaves `hidden` in its output array. -/
theorem region0_value (c : Dev nD) : (dat0 (F := Ideal) V c).arrAt 5 cfg0.N = hidden V c :=
  (dat0 (F := Ideal) V c).arrAt_eq_of_cover 5 (hidden V c) (fun t _ => flushed0 V c t) cover0

/-! ## Launch 1 (layer two and the log-softmax) -/

abbrev feat1 (c : Dev nD) : FVec Ideal S50000x128 .bf16 := V c main_v45
abbrev agg1 (c : Dev nD) : FVec Ideal S50000x128 .bf16 := V c main_v46
abbrev wl1 (c : Dev nD) : FVec Ideal S128x64 .bf16 := V c main_v48
abbrev bias1 (c : Dev nD) : FVec Ideal S1x64 .f32 := V c main_v51
abbrev wr1 (c : Dev nD) : FVec Ideal S128x64 .bf16 := V c main_v50

/-- The result array from the arrays launch 1 finds. -/
def logits (c : Dev nD) : FVec Ideal S50000x64 .f32 := fun i =>
  Sage.logSoftmax (fun j' : Fin 64 =>
    ((∑ k : Fin 128, agg1 V c (ix2 (i 0) k) * wl1 V c (ix2 k j'))
      + (∑ k : Fin 128, feat1 V c (ix2 (i 0) k) * wr1 V c (ix2 k j')))
    + bias1 V c (ix2 (0 : Fin 1) j')) (i 1)

/-- The block indices of launch 1 over its five points: the two row-indexed inputs and the output sit at row-block
    `t`, column-block 0; the two weight matrices and the bias row at block (0, 0). -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point `t`'s block of the hidden features is rows `10000·t …` of the array. -/
theorem featBlk1 (c : Dev nD) (t : Fin cfg1.N) (p : Fin 10000) (k : Fin 128) :
    (iblk1 V c 0 t : FVec Ideal S10000x128 .bf16) (ix2 p k) = feat1 V c (ix2 (rowOf (t.cast N_1) p) k) := by
  obtain ⟨e0, e1, -⟩ := blockIdx1 t
  unfold iblk1
  rw [View.read_apply]
  show V c main_v45 (((cfg1.win 0).blk t).view.emb (ix2 p k)) = V c main_v45 _
  congr 1
  funext a; apply Fin.ext
  match a with
  | ⟨0, _⟩ => show win1_0.index t (0 : Fin 2) * 10000 + 1 * p.val = 10000 * t.val + p.val; omega
  | ⟨1, _⟩ => show win1_0.index t (1 : Fin 2) * 128 + 1 * k.val = k.val; omega

/-- Point `t`'s block of the aggregated hidden features is rows `10000·t …` of the array. -/
theorem aggBlk1 (c : Dev nD) (t : Fin cfg1.N) (p : Fin 10000) (k : Fin 128) :
    (iblk1 V c 1 t : FVec Ideal S10000x128 .bf16) (ix2 p k) = agg1 V c (ix2 (rowOf (t.cast N_1) p) k) := by
  obtain ⟨-, -, e0, e1, -⟩ := blockIdx1 t
  unfold iblk1
  rw [View.read_apply]
  show V c main_v46 (((cfg1.win 1).blk t).view.emb (ix2 p k)) = V c main_v46 _
  congr 1
  funext a; apply Fin.ext
  match a with
  | ⟨0, _⟩ => show win1_1.index t (0 : Fin 2) * 10000 + 1 * p.val = 10000 * t.val + p.val; omega
  | ⟨1, _⟩ => show win1_1.index t (1 : Fin 2) * 128 + 1 * k.val = k.val; omega

/-- Every point's block of the left weights is the whole matrix. -/
theorem wlBlk1 (c : Dev nD) (t : Fin cfg1.N) (k : Fin 128) (q : Fin 64) :
    (iblk1 V c 2 t : FVec Ideal S128x64 .bf16) (ix2 k q) = wl1 V c (ix2 k q) := by
  obtain ⟨-, -, -, -, e0, e1, -⟩ := blockIdx1 t
  unfold iblk1
  rw [View.read_apply]
  show V c main_v48 (((cfg1.win 2).blk t).view.emb (ix2 k q)) = V c main_v48 _
  congr 1
  funext a; apply Fin.ext
  match a with
  | ⟨0, _⟩ => show win1_2.index t (0 : Fin 2) * 128 + 1 * k.val = k.val; omega
  | ⟨1, _⟩ => show win1_2.index t (1 : Fin 2) * 64 + 1 * q.val = q.val; omega

/-- Every point's block of the bias is the whole row. -/
theorem biasBlk1 (c : Dev nD) (t : Fin cfg1.N) (z : Fin 1) (q : Fin 64) :
    (iblk1 V c 3 t : FVec Ideal S1x64 .f32) (ix2 z q) = bias1 V c (ix2 z q) := by
  obtain ⟨-, -, -, -, -, -, e0, e1, -⟩ := blockIdx1 t
  unfold iblk1
  rw [View.read_apply]
  show V c main_v51 (((cfg1.win 3).blk t).view.emb (ix2 z q)) = V c main_v51 _
  congr 1
  funext a; apply Fin.ext
  match a with
  | ⟨0, _⟩ => show win1_3.index t (0 : Fin 2) * 1 + 1 * z.val = z.val; omega
  | ⟨1, _⟩ => show win1_3.index t (1 : Fin 2) * 64 + 1 * q.val = q.val; omega

/-- Every point's block of the right weights is the whole matrix. -/
theorem wrBlk1 (c : Dev nD) (t : Fin cfg1.N) (k : Fin 128) (q : Fin 64) :
    (iblk1 V c 4 t : FVec Ideal S128x64 .bf16) (ix2 k q) = wr1 V c (ix2 k q) := by
  obtain ⟨-, -, -, -, -, -, -, -, e0, e1, -⟩ := blockIdx1 t
  unfold iblk1
  rw [View.read_apply]
  show V c main_v50 (((cfg1.win 4).blk t).view.emb (ix2 k q)) = V c main_v50 _
  congr 1
  funext a; apply Fin.ext
  match a with
  | ⟨0, _⟩ => show win1_4.index t (0 : Fin 2) * 128 + 1 * k.val = k.val; omega
  | ⟨1, _⟩ => show win1_4.index t (1 : Fin 2) * 64 + 1 * q.val = q.val; omega

/-- Entry `(p, q)` of point `t`'s output block is entry `(10000·t + p, q)` of the result array. -/
theorem outIdx1 (t : Fin cfg1.N) (p : Fin 10000) (q : Fin 64) :
    (((cfg1.win 5).blk t).view.emb (ix2 p q) : S50000x64.Idx) = ix2 (rowOf (t.cast N_1) p) q := by
  obtain ⟨-, -, -, -, -, -, -, -, -, -, e0, e1⟩ := blockIdx1 t
  funext a; apply Fin.ext
  match a with
  | ⟨0, _⟩ => show win1_5.index t (0 : Fin 2) * 10000 + 1 * p.val = 10000 * t.val + p.val; omega
  | ⟨1, _⟩ => show win1_5.index t (1 : Fin 2) * 64 + 1 * q.val = q.val; omega

/-- What point `t` writes back is its block of `logits`: the body's value on the point's rows of the inputs. -/
theorem flushed1 (c : Dev nD) (t : Fin cfg1.N) :
    (dat1 (F := Ideal) V c).flushed 5 t = ((cfg1.win 5).blk t).view.read (Elt Ideal) (logits V c) := by
  show (cfg1.win 5).cut (grid1.coords t) ((dat1 (F := Ideal) V c).after 5 t) = _
  rw [after1_5]
  unfold out1_5
  rw [View.canon_unit_zero zero_offsets]
  simp only [View.ld_unit_zero (S := S10000x128) zero_offsets, View.ld_unit_zero (S := S128x64) zero_offsets,
    View.ld_unit_zero (S := S1x64) zero_offsets]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = logits V c (((cfg1.win 5).blk t).view.emb (ix2 p q))
  refine Eq.trans ?_ (congrArg (logits V c) (outIdx1 t p q).symm)
  refine (Pay.pay1_apply (iblk1 V c 0 t) (iblk1 V c 1 t) (iblk1 V c 2 t) (iblk1 V c 4 t) (iblk1 V c 3 t) p q).trans ?_
  show _ = Sage.logSoftmax (fun j' : Fin 64 =>
    ((∑ k : Fin 128, agg1 V c (ix2 (rowOf (t.cast N_1) p) k) * wl1 V c (ix2 k j'))
      + (∑ k : Fin 128, feat1 V c (ix2 (rowOf (t.cast N_1) p) k) * wr1 V c (ix2 k j')))
    + bias1 V c (ix2 (0 : Fin 1) j')) q
  simp only [featBlk1 V c t, aggBlk1 V c t, wlBlk1 V c t, wrBlk1 V c t, biasBlk1 V c t]

/-- An index of the result array is in point `t`'s block iff each coordinate is in the block's range on its axis. -/
theorem mem_blk1 (t : Fin cfg1.N) (i : S50000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v52).slice (win1_5.rect t)).set ↔ _
  rw [View.set_slice_whole, Rect.mem_set_unit]
  exact Iff.rfl

/-- The five blocks tile the rows: row `r` is in the block of point `r / 10000`. -/
theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, -, -, -, -, -, -, e0, e1⟩ := blockIdx1 t
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- Launch 1 leaves `logits` in its output array. -/
theorem region1_value (c : Dev nD) : (dat1 (F := Ideal) V c).arrAt 5 cfg1.N = logits V c :=
  (dat1 (F := Ideal) V c).arrAt_eq_of_cover 5 (logits V c) (fun t _ => flushed1 V c t) cover1

end Cert.KernelIdeal.Region

end
-- ==== Proof.Ops.lean ====
/-
  The two host computations both programs share, named once: the neighbourhood sum of a feature array over the edge
  list (each edge's source row, its index wrapped if negative, gathered and added into the edge's destination row)
  and the in-degree (a one added into each edge's destination).  They are written with the kernel program's
  dimension records; the reference's records have the same fields, so its operations are these by unfolding.
-/
import proofs.«112490_j9113920602386_1_alg».proof.Proof.Gen.KernelIdeal
import Idealize.ShloMosaic.PureOps.Ideal

noncomputable section

namespace Cert.Sage.Ops

open Idealize.ShloMosaic Cert.KernelIdeal Cert.KernelIdeal.Facts₀ Cert.KernelIdeal.Facts

/-- Each edge's destination node, as the scatter's index column. -/
def dstCol (e : IVec S2x640000 32) : IVec S640000x1 32 :=
  broadcastInDim S640000x1 ![0] bcast_S640000_S640000x1_0
    (shapeCast _ (extractStridedSlice S1x640000 ![1, 0] e slices_S2x640000_S1x640000_1_0) shapeCasts_S1x640000_S640000)

/-- Each edge's source node. -/
def srcVec (e : IVec S2x640000 32) : IVec S640000 32 :=
  shapeCast _ (extractStridedSlice S1x640000 ![0, 0] e slices_S2x640000_S1x640000_0_0) shapeCasts_S1x640000_S640000

/-- Each edge's source node with a negative index wrapped by the node count, as the gather's index column. -/
def srcCol (e : IVec S2x640000 32) : IVec S640000x1 32 :=
  broadcastInDim S640000x1 ![0] bcast_S640000_S640000x1_0
    (select (cmpi .slt (srcVec e) (broadcastInDim S640000 ![] bcast_S_S640000 (constantI S_ 32 0#32)))
      (addi (srcVec e) (broadcastInDim S640000 ![] bcast_S_S640000 (constantI S_ 32 50000#32)))
      (srcVec e))

/-- The neighbourhood sums of the feature array `X` over the edge list `e`. -/
def Sop (e : IVec S2x640000 32) (X : FVec Ideal S50000x128 .f32) : FVec Ideal S50000x128 .f32 :=
  Host.scatterAdd scatter_S50000x128_S640000x1_S640000x128_1_0_0_1
    (broadcastInDim S50000x128 ![] bcast_S_S50000x128 (constant (F := Ideal) S_ .f32 0x00000000#32))
    (dstCol e)
    (Host.gather gather_S50000x128_S640000x1_S640000x128_1_0_n_n_0_1_1128 X (srcCol e))

/-- The in-degree of every node. -/
def deg (e : IVec S2x640000 32) : FVec Ideal S50000 .f32 :=
  Host.scatterAdd scatter_S50000_S640000x1_S640000_n_0_0_1
    (broadcastInDim S50000 ![] bcast_S_S50000 (constant (F := Ideal) S_ .f32 0x00000000#32))
    (dstCol e)
    (broadcastInDim S640000 ![] bcast_S_S640000 (constant (F := Ideal) S_ .f32 0x3F800000#32))

end Cert.Sage.Ops

end
-- ==== Proof.Glue.lean ====
/-
  The arrays each kernel launch finds, read at one element from the program's arguments: what the host operations
  before a launch compute.  A change of float format is the identity on the extended reals; a transpose swaps the
  two coordinates; the bias vector is reshaped to one row; the aggregated features are the neighbourhood sums times
  the reciprocal of the clamped in-degree, which is the mean (`Sage.mul_recip_eq_mean`).  The second launch reads
  the first launch's output array where the first read the node features.
-/
import proofs.«112490_j9113920602386_1_alg».proof.Proof.Gen.KernelIdeal.Frame
import proofs.«112490_j9113920602386_1_alg».proof.Proof.Ops
import proofs.«112490_j9113920602386_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The program's arguments on core `c`, at their literal types. -/
abbrev xA (c : Dev nD) : FVec Ideal S50000x128 .f32 := m ((c : Thread nD τ).loc main_arg0)
abbrev eA (c : Dev nD) : IVec S2x640000 32 := m ((c : Thread nD τ).loc main_arg1)
abbrev w1l (c : Dev nD) : FVec Ideal S128x128 .f32 := m ((c : Thread nD τ).loc main_arg2)
abbrev b1A (c : Dev nD) : FVec Ideal S128 .f32 := m ((c : Thread nD τ).loc main_arg3)
abbrev w1r (c : Dev nD) : FVec Ideal S128x128 .f32 := m ((c : Thread nD τ).loc main_arg4)
abbrev w2l (c : Dev nD) : FVec Ideal S64x128 .f32 := m ((c : Thread nD τ).loc main_arg5)
abbrev b2A (c : Dev nD) : FVec Ideal S64 .f32 := m ((c : Thread nD τ).loc main_arg6)
abbrev w2r (c : Dev nD) : FVec Ideal S64x128 .f32 := m ((c : Thread nD τ).loc main_arg7)

/-- The first launch's output array as the second stretch of host operations finds it. -/
abbrev hid (c : Dev nD) : FVec Ideal S50000x128 .f32 := W2 (F := Ideal) m ρ c (Proc.devRef .tc main_v32)

/-! ## The host operations in front of each launch, buffer by buffer

Each stretch of host operations is a straight line: what one of its result buffers holds is the composite of the
operations that feed it, applied to the program's arguments (first stretch) or to what the first launch leaves
(second stretch). -/

/-- The reciprocal of the in-degree clamped below at one, one entry per node, as a column. -/
private def recipCol (e : IVec S2x640000 32) : FVec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf (Sage.Ops.deg e) (broadcastInDim S50000 ![] bcast_S_S50000 (constant (F := Ideal) S_ .f32 0x3F800000#32))))

/-- Each edge's destination node. -/
private def dstVec (e : IVec S2x640000 32) : IVec S640000 32 :=
  shapeCast S640000 (extractStridedSlice S1x640000 ![1, 0] e slices_S2x640000_S1x640000_1_0) shapeCasts_S1x640000_S640000

/-- The aggregated features a launch is handed: the neighbourhood sums of `X` times the reciprocal column spread along
    each row, in the narrower format (the same extended reals). -/
private def aggOf (e : IVec S2x640000 32) (X : FVec Ideal S50000x128 .f32) : FVec Ideal S50000x128 .bf16 :=
  truncf .bf16 (mulf (Sage.Ops.Sop e X)
    (broadcastInDim S50000x128 ![0, 1] bcast_S50000x1_S50000x128_0_1 (recipCol e))) bitsLt_bf16_f32

/-- The column of reciprocals read at a node: one over the clamped in-degree. -/
private theorem recipCol_apply (e : IVec S2x640000 32) (r : Fin 50000) (u : Fin 1) :
    recipCol e (ix2 r u) = Ideal.div Sage.oneW (max (Sage.Ops.deg e (ix1 r)) Sage.oneW) := by
  unfold recipCol
  generalize Sage.Ops.deg e = D
  refine (broadcastInDim_apply _ bcast_S50000_S50000x1_0 _ (ix2 r u) (ix1 r) (fun a => match a with
    | ⟨0, _⟩ => by show r.val = if (50000 : Nat) = 1 then 0 else r.val; rw [if_neg (by decide)])).trans ?_
  rfl

/-- The aggregated features read at node `r`, feature `k`: the mean of the neighbourhood sum over the clamped degree. -/
private theorem aggOf_apply (e : IVec S2x640000 32) (X : FVec Ideal S50000x128 .f32) (r : Fin 50000) (k : Fin 128) :
    aggOf e X (ix2 r k) = Sage.mean (Sage.Ops.Sop e X (ix2 r k)) (Sage.Ops.deg e (ix1 r)) := by
  unfold aggOf
  generalize Sage.Ops.Sop e X = S
  rw [truncf_apply, mulf_apply,
    broadcastInDim_apply _ bcast_S50000x1_S50000x128_0_1 (recipCol e) (ix2 r k) (ix2 r (0 : Fin 1)) (fun a => match a with
      | ⟨0, _⟩ => by show r.val = if (50000 : Nat) = 1 then 0 else r.val; rw [if_neg (by decide)]
      | ⟨1, _⟩ => by show 0 = if (1 : Nat) = 1 then 0 else k.val; rw [if_pos rfl]),
    recipCol_apply]
  exact Sage.mul_recip_eq_mean _ _

/-! ### The first stretch -/

private theorem W1_v1 (c : Dev nD) :
    (W1 (F := Ideal) m ρ c (Proc.devRef .tc main_v1) : IVec S640000 32) = Sage.Ops.srcVec (eA m c) := by
  show StableHlo.after hostOps0 (W0 m ρ c) (Proc.devRef .tc main_v1) = _
  dsimp only [hostOps0]
  after_results <;> rfl

private theorem W1_v3 (c : Dev nD) :
    (W1 (F := Ideal) m ρ c (Proc.devRef .tc main_v3) : IVec S640000 32) = dstVec (eA m c) := by
  show StableHlo.after hostOps0 (W0 m ρ c) (Proc.devRef .tc main_v3) = _
  dsimp only [hostOps0]
  after_results <;> rfl

private theorem W1_v12 (c : Dev nD) :
    (W1 (F := Ideal) m ρ c (Proc.devRef .tc main_v12) : FVec Ideal S50000x1 .f32) = recipCol (eA m c) := by
  show StableHlo.after hostOps0 (W0 m ρ c) (Proc.devRef .tc main_v12) = _
  dsimp only [hostOps0]
  after_results <;> rfl

private theorem W1_v25 (c : Dev nD) :
    (W1 (F := Ideal) m ρ c (Proc.devRef .tc main_v25) : FVec Ideal S50000x128 .bf16)
      = truncf .bf16 (xA m c) bitsLt_bf16_f32 := by
  show StableHlo.after hostOps0 (W0 m ρ c) (Proc.devRef .tc main_v25) = _
  dsimp only [hostOps0]
  after_results <;> rfl

set_option maxHeartbeats 1600000 in
private theorem W1_v26 (c : Dev nD) :
    (W1 (F := Ideal) m ρ c (Proc.devRef .tc main_v26) : FVec Ideal S50000x128 .bf16) = aggOf (eA m c) (xA m c) := by
  show StableHlo.after hostOps0 (W0 m ρ c) (Proc.devRef .tc main_v26) = _
  dsimp only [hostOps0]
  after_results_simp <;> rfl

private theorem W1_v28 (c : Dev nD) :
    (W1 (F := Ideal) m ρ c (Proc.devRef .tc main_v28) : FVec Ideal S128x128 .bf16)
      = truncf .bf16 (transpose S128x128 [1, 0] (w1l m c) transposes_S128x128_S128x128_1_0) bitsLt_bf16_f32 := by
  show StableHlo.after hostOps0 (W0 m ρ c) (Proc.devRef .tc main_v28) = _
  dsimp only [hostOps0]
  after_results <;> rfl

private theorem W1_v30 (c : Dev nD) :
    (W1 (F := Ideal) m ρ c (Proc.devRef .tc main_v30) : FVec Ideal S128x128 .bf16)
      = truncf .bf16 (transpose S128x128 [1, 0] (w1r m c) transposes_S128x128_S128x128_1_0) bitsLt_bf16_f32 := by
  show StableHlo.after hostOps0 (W0 m ρ c) (Proc.devRef .tc main_v30) = _
  dsimp only [hostOps0]
  after_results <;> rfl

private theorem W1_v31 (c : Dev nD) :
    (W1 (F := Ideal) m ρ c (Proc.devRef .tc main_v31) : FVec Ideal S1x128 .f32)
      = shapeCast S1x128 (b1A m c) shapeCasts_S128_S1x128 := by
  show StableHlo.after hostOps0 (W0 m ρ c) (Proc.devRef .tc main_v31) = _
  dsimp only [hostOps0]
  after_results <;> rfl

/-! ## What launch 0 finds -/

theorem entry0_feat (c : Dev nD) (r : Fin 50000) (k : Fin 128) :
    (V1 (F := Ideal) m ρ c main_v25 : FVec Ideal S50000x128 .bf16) (ix2 r k) = xA m c (ix2 r k) := by
  exact (congrFun (W1_v25 m ρ c) (ix2 r k)).trans rfl

theorem entry0_agg (c : Dev nD) (r : Fin 50000) (k : Fin 128) :
    (V1 (F := Ideal) m ρ c main_v26 : FVec Ideal S50000x128 .bf16) (ix2 r k)
      = Sage.mean (Sage.Ops.Sop (eA m c) (xA m c) (ix2 r k)) (Sage.Ops.deg (eA m c) (ix1 r)) := by
  exact (congrFun (W1_v26 m ρ c) (ix2 r k)).trans (aggOf_apply _ _ r k)

theorem entry0_wl (c : Dev nD) (k j : Fin 128) :
    (V1 (F := Ideal) m ρ c main_v28 : FVec Ideal S128x128 .bf16) (ix2 k j) = w1l m c (ix2 j k) := by
  refine (congrFun (W1_v28 m ρ c) (ix2 k j)).trans ?_
  exact transpose_ix2_apply (w1l m c) transposes_S128x128_S128x128_1_0 k j

theorem entry0_wr (c : Dev nD) (k j : Fin 128) :
    (V1 (F := Ideal) m ρ c main_v30 : FVec Ideal S128x128 .bf16) (ix2 k j) = w1r m c (ix2 j k) := by
  refine (congrFun (W1_v30 m ρ c) (ix2 k j)).trans ?_
  exact transpose_ix2_apply (w1r m c) transposes_S128x128_S128x128_1_0 k j

theorem entry0_bias (c : Dev nD) (j : Fin 128) :
    (V1 (F := Ideal) m ρ c main_v31 : FVec Ideal S1x128 .f32) (ix2 (0 : Fin 1) j) = b1A m c (ix1 j) := by
  refine (congrFun (W1_v31 m ρ c) (ix2 (0 : Fin 1) j)).trans ?_
  exact shapeCast_a_1a_apply (b1A m c) shapeCasts_S128_S1x128 (0 : Fin 1) j

/-! ### The second stretch

It reads the edge list's two rows and the reciprocal column where the first stretch left them, the first launch's output
array, and three more arguments; no window of the first launch is one of those buffers except its output. -/

private theorem W2_arg5 (c : Dev nD) :
    (W2 (F := Ideal) m ρ c (Proc.devRef .tc main_arg5) : FVec Ideal S64x128 .f32) = w2l m c := by
  rw [W2_of_ne m ρ c main_arg5 (by decide)]
  show StableHlo.after hostOps0 (W0 m ρ c) (Proc.devRef .tc main_arg5) = _
  dsimp only [hostOps0]
  after_results <;> rfl

private theorem W2_arg6 (c : Dev nD) :
    (W2 (F := Ideal) m ρ c (Proc.devRef .tc main_arg6) : FVec Ideal S64 .f32) = b2A m c := by
  rw [W2_of_ne m ρ c main_arg6 (by decide)]
  show StableHlo.after hostOps0 (W0 m ρ c) (Proc.devRef .tc main_arg6) = _
  dsimp only [hostOps0]
  after_results <;> rfl

private theorem W2_arg7 (c : Dev nD) :
    (W2 (F := Ideal) m ρ c (Proc.devRef .tc main_arg7) : FVec Ideal S64x128 .f32) = w2r m c := by
  rw [W2_of_ne m ρ c main_arg7 (by decide)]
  show StableHlo.after hostOps0 (W0 m ρ c) (Proc.devRef .tc main_arg7) = _
  dsimp only [hostOps0]
  after_results <;> rfl

private theorem W3_v45 (c : Dev nD) :
    (W3 (F := Ideal) m ρ c (Proc.devRef .tc main_v45) : FVec Ideal S50000x128 .bf16)
      = truncf .bf16 (hid m ρ c) bitsLt_bf16_f32 := by
  show StableHlo.after hostOps1 (W2 m ρ c) (Proc.devRef .tc main_v45) = _
  dsimp only [hostOps1]
  after_results <;> rfl

set_option maxHeartbeats 1600000 in
private theorem W3_v46 (c : Dev nD) :
    (W3 (F := Ideal) m ρ c (Proc.devRef .tc main_v46) : FVec Ideal S50000x128 .bf16) = aggOf (eA m c) (hid m ρ c) := by
  show StableHlo.after hostOps1 (W2 m ρ c) (Proc.devRef .tc main_v46) = _
  dsimp only [hostOps1]
  after_results_simp
  rw [W2_of_ne m ρ c main_v1 (by decide), W2_of_ne m ρ c main_v3 (by decide), W2_of_ne m ρ c main_v12 (by decide),
    W1_v1, W1_v3, W1_v12]
  rfl

private theorem W3_v48 (c : Dev nD) :
    (W3 (F := Ideal) m ρ c (Proc.devRef .tc main_v48) : FVec Ideal S128x64 .bf16)
      = truncf .bf16 (transpose S128x64 [1, 0] (w2l m c) transposes_S64x128_S128x64_1_0) bitsLt_bf16_f32 := by
  show StableHlo.after hostOps1 (W2 m ρ c) (Proc.devRef .tc main_v48) = _
  dsimp only [hostOps1]
  after_results
  rw [W2_arg5]

private theorem W3_v50 (c : Dev nD) :
    (W3 (F := Ideal) m ρ c (Proc.devRef .tc main_v50) : FVec Ideal S128x64 .bf16)
      = truncf .bf16 (transpose S128x64 [1, 0] (w2r m c) transposes_S64x128_S128x64_1_0) bitsLt_bf16_f32 := by
  show StableHlo.after hostOps1 (W2 m ρ c) (Proc.devRef .tc main_v50) = _
  dsimp only [hostOps1]
  after_results
  rw [W2_arg7]

private theorem W3_v51 (c : Dev nD) :
    (W3 (F := Ideal) m ρ c (Proc.devRef .tc main_v51) : FVec Ideal S1x64 .f32)
      = shapeCast S1x64 (b2A m c) shapeCasts_S64_S1x64 := by
  show StableHlo.after hostOps1 (W2 m ρ c) (Proc.devRef .tc main_v51) = _
  dsimp only [hostOps1]
  after_results
  rw [W2_arg6]
  rfl

/-! ## What launch 1 finds -/

theorem entry1_feat (c : Dev nD) (r : Fin 50000) (k : Fin 128) :
    (V3 (F := Ideal) m ρ c main_v45 : FVec Ideal S50000x128 .bf16) (ix2 r k) = hid m ρ c (ix2 r k) := by
  exact (congrFun (W3_v45 m ρ c) (ix2 r k)).trans rfl

theorem entry1_agg (c : Dev nD) (r : Fin 50000) (k : Fin 128) :
    (V3 (F := Ideal) m ρ c main_v46 : FVec Ideal S50000x128 .bf16) (ix2 r k)
      = Sage.mean (Sage.Ops.Sop (eA m c) (hid m ρ c) (ix2 r k)) (Sage.Ops.deg (eA m c) (ix1 r)) := by
  exact (congrFun (W3_v46 m ρ c) (ix2 r k)).trans (aggOf_apply _ _ r k)

theorem entry1_wl (c : Dev nD) (k : Fin 128) (j : Fin 64) :
    (V3 (F := Ideal) m ρ c main_v48 : FVec Ideal S128x64 .bf16) (ix2 k j) = w2l m c (ix2 j k) := by
  refine (congrFun (W3_v48 m ρ c) (ix2 k j)).trans ?_
  exact transpose_ix2_apply (w2l m c) transposes_S64x128_S128x64_1_0 k j

theorem entry1_wr (c : Dev nD) (k : Fin 128) (j : Fin 64) :
    (V3 (F := Ideal) m ρ c main_v50 : FVec Ideal S128x64 .bf16) (ix2 k j) = w2r m c (ix2 j k) := by
  refine (congrFun (W3_v50 m ρ c) (ix2 k j)).trans ?_
  exact transpose_ix2_apply (w2r m c) transposes_S64x128_S128x64_1_0 k j

theorem entry1_bias (c : Dev nD) (j : Fin 64) :
    (V3 (F := Ideal) m ρ c main_v51 : FVec Ideal S1x64 .f32) (ix2 (0 : Fin 1) j) = b2A m c (ix1 j) := by
  refine (congrFun (W3_v51 m ρ c) (ix2 (0 : Fin 1) j)).trans ?_
  exact shapeCast_a_1a_apply (b2A m c) shapeCasts_S64_S1x64 (0 : Fin 1) j

end Cert.KernelIdeal.Glue

end
-- ==== Proof.KernelValue.lean ====
/-
  The kernel program's result array as the network of its arguments.  The last boundary's contents at the result
  array are what launch 1 leaves; launch 1 finds the host's second stretch applied to what launch 0 leaves; launch 0
  finds the host's first stretch applied to the arguments.  Read element by element, each launch's output row is the
  layer's row in the kernel's grouping `(Σ a·wl + Σ x·wr) + b`, which is the reference's `(Σ a·wl + b) + Σ x·wr`.
-/
import proofs.«112490_j9113920602386_1_alg».proof.Proof.Region
import proofs.«112490_j9113920602386_1_alg».proof.Proof.Glue

set_option maxRecDepth 16384

noncomputable section

open scoped BigOperators

namespace Cert.KernelIdeal.Result

open Idealize.ShloMosaic Idealize.ShloMosaic.TcCoe Idealize.ShloMosaic.ValueIdx Idealize.SL.Sem
open Cert.KernelIdeal Cert.KernelIdeal.Gen
open Cert.KernelIdeal.Glue Cert.KernelIdeal.Region

variable (m : (ℓ : Loc nD τ sig) → Buf (Elt Ideal) ℓ) (ρ : Dev nD → PrngReg)

/-- What launch 0 leaves is layer one of the arguments. -/
theorem hidden_value (c : Dev nD) :
    hid m ρ c = Sage.layer1 (Sage.Ops.Sop (eA m c) (xA m c)) (xA m c) (Sage.Ops.deg (eA m c)) (w1l m c) (w1r m c) (b1A m c) := by
  have h1 : hid m ρ c = (dat0 (F := Ideal) (V1 m ρ) c).arrAt 5 cfg0.N := W2_arr m ρ c 5
  rw [h1, region0_value]
  funext i
  obtain ⟨r, j, rfl⟩ : ∃ (r : Fin 50000) (j : Fin 128), i = ix2 r j := ⟨i 0, i 1, eq_ix2 i⟩
  rw [Sage.layer1_apply]
  unfold Sage.layer1At Sage.preAt
  rw [← Sage.pre_kernel]
  show max (((∑ k : Fin 128, agg0 (V1 m ρ) c (ix2 r k) * wl0 (V1 m ρ) c (ix2 k j))
        + (∑ k : Fin 128, feat0 (V1 m ρ) c (ix2 r k) * wr0 (V1 m ρ) c (ix2 k j)))
      + bias0 (V1 m ρ) c (ix2 (0 : Fin 1) j)) Sage.zeroW = _
  refine congrArg (fun z => max z Sage.zeroW) ?_
  refine congrArg₂ (· + ·) (congrArg₂ (· + ·) (Finset.sum_congr rfl fun k _ => ?_) (Finset.sum_congr rfl fun k _ => ?_))
    (entry0_bias m ρ c j)
  · exact congrArg₂ (· * ·) (entry0_agg m ρ c r k) (entry0_wl m ρ c k j)
  · exact congrArg₂ (· * ·) (entry0_feat m ρ c r k) (entry0_wr m ρ c k j)

/-- The result array at the last boundary is the network of the arguments. -/
theorem result_value (c : Dev nD) :
    (W4 (F := Ideal) m ρ c (Proc.devRef .tc main_v52) : FVec Ideal S50000x64 .f32)
      = Sage.network (Sage.Ops.Sop (eA m c)) (Sage.Ops.deg (eA m c)) (xA m c) (w1l m c) (b1A m c) (w1r m c)
          (w2l m c) (b2A m c) (w2r m c) := by
  have h1 : (W4 (F := Ideal) m ρ c (Proc.devRef .tc main_v52) : FVec Ideal S50000x64 .f32)
      = (dat1 (F := Ideal) (V3 m ρ) c).arrAt 5 cfg1.N := W4_arr m ρ c 5
  rw [h1, region1_value]
  unfold Sage.network
  rw [← hidden_value m ρ c]
  funext i
  obtain ⟨r, j, rfl⟩ : ∃ (r : Fin 50000) (j : Fin 64), i = ix2 r j := ⟨i 0, i 1, eq_ix2 i⟩
  rw [Sage.layer2_apply]
  unfold Sage.layer2At
  show Sage.logSoftmax (fun j' : Fin 64 =>
      ((∑ k : Fin 128, agg1 (V3 m ρ) c (ix2 r k) * wl1 (V3 m ρ) c (ix2 k j'))
        + (∑ k : Fin 128, feat1 (V3 m ρ) c (ix2 r k) * wr1 (V3 m ρ) c (ix2 k j')))
      + bias1 (V3 m ρ) c (ix2 (0 : Fin 1) j')) j = _
  refine congrArg (fun z => Sage.logSoftmax z j) (funext fun j' => ?_)
  unfold Sage.preAt
  rw [← Sage.pre_kernel]
  refine congrArg₂ (· + ·) (congrArg₂ (· + ·) (Finset.sum_congr rfl fun k _ => ?_) (Finset.sum_congr rfl fun k _ => ?_))
    (entry1_bias m ρ c j')
  · exact congrArg₂ (· * ·) (entry1_agg m ρ c r k) (entry1_wl m ρ c k j')
  · exact congrArg₂ (· * ·) (entry1_feat m ρ c r k) (entry1_wr m ρ c k j')

end Cert.KernelIdeal.Result

end
-- ==== Proof.RefLayer1.lean ====
/-
  The reference's first layer, read one element at a time: its `dot_general`s are the sums over the 128 features,
  its quotient by the clamped in-degree is the mean, its bias is broadcast along the rows, and `relu` is `max · 0`.
  The gather and the scatter-adds are carried whole, as the neighbourhood-sum operator and the in-degree.
-/
import proofs.«112490_j9113920602386_1_alg».proof.Proof.RefRead
import proofs.«112490_j9113920602386_1_alg».proof.Proof.Ops
import proofs.«112490_j9113920602386_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.IdealHost

noncomputable section

open scoped BigOperators

namespace Cert.RefValue

open Idealize.ShloMosaic Idealize.ShloMosaic.ValueIdx Cert.ReferenceIdeal Cert.ReferenceIdeal.ReadP

/-! ## The host operators the layer carries whole -/

/-- Each edge's destination column, as the reference builds it for the feature scatter. -/
private theorem dstCol_eq (x1 : IVec S2x640000 32) : val_main_v12 (F := Ideal) x1 = Sage.Ops.dstCol x1 := by
  unfold val_main_v12 val_main_v3 val_main_v2 Sage.Ops.dstCol
  rfl

/-- The same column, built a second time for the degree scatter. -/
private theorem dstCol_eq' (x1 : IVec S2x640000 32) : val_main_v16 (F := Ideal) x1 = Sage.Ops.dstCol x1 := by
  unfold val_main_v16 val_main_v3 val_main_v2 Sage.Ops.dstCol
  rfl

/-- Each edge's source node. -/
private theorem srcVec_eq (x1 : IVec S2x640000 32) : val_main_v1 (F := Ideal) x1 = Sage.Ops.srcVec x1 := by
  unfold val_main_v1 val_main_v0 Sage.Ops.srcVec
  rfl

/-- The source column with negative indices wrapped by the node count. -/
private theorem srcCol_eq (x1 : IVec S2x640000 32) : val_main_v9 (F := Ideal) x1 = Sage.Ops.srcCol x1 := by
  unfold val_main_v9 val_main_v8 val_main_v5 val_main_v7 val_main_v4 val_main_v6 val_main_c val_main_c_0 Sage.Ops.srcCol
  rw [srcVec_eq]

/-- The reference's gather followed by its scatter-add is the neighbourhood sum. -/
private theorem sop_eq (x0 : FVec Ideal S50000x128 .f32) (x1 : IVec S2x640000 32) :
    val_main_v13 (F := Ideal) x0 x1 = Sage.Ops.Sop x1 x0 := by
  unfold val_main_v13 val_main_v10 val_main_v11 val_main_cst Sage.Ops.Sop
  rw [dstCol_eq, srcCol_eq]
  rfl

/-- The reference's scatter-add of ones is the in-degree. -/
private theorem deg_eq (x1 : IVec S2x640000 32) : val_main_v17 (F := Ideal) x1 = Sage.Ops.deg x1 := by
  unfold val_main_v17 val_main_v15 val_main_cst_2 val_main_v14 val_main_cst_1 Sage.Ops.deg
  rw [dstCol_eq']
  rfl

/-! ## The layer at one node and one unit -/

/-- The quotient of the neighbourhood sum by the clamped in-degree, at node `r` and feature `k`, is the mean. -/
private theorem mean_at (x0 : FVec Ideal S50000x128 .f32) (x1 : IVec S2x640000 32) (r : Fin 50000) (k : Fin 128) :
    val_main_v22 (F := Ideal) x0 x1 (ix2 r k)
      = Sage.mean (Sage.Ops.Sop x1 x0 (ix2 r k)) (Sage.Ops.deg x1 (ix1 r)) := by
  have h : idx_main_v20 (idx_main_v21 (ix2 r k)) = ix1 r :=
    funext fun a => Fin.ext (by match a with | ⟨0, _⟩ => rfl)
  rw [val_main_v22_apply, val_main_v21_apply, val_main_v20_apply, val_main_v19_apply, val_main_v18_apply,
    val_main_cst_3_apply, h, sop_eq, deg_eq]
  simp only [Ideal.hostDivf_def, Ideal.maximumf_def, Ideal.ofBits_def]
  rfl

/-- The product of the means with the first weight matrix, at node `r` and unit `j`. -/
private theorem dotl_at (x0 : FVec Ideal S50000x128 .f32) (x1 : IVec S2x640000 32) (x2 : FVec Ideal S128x128 .f32)
    (r : Fin 50000) (j : Fin 128) :
    val_main_v24 (F := Ideal) x0 x1 x2 (ix2 r j)
      = ∑ k : Fin 128, Sage.mean (Sage.Ops.Sop x1 x0 (ix2 r k)) (Sage.Ops.deg x1 (ix1 r)) * x2 (ix2 j k) := by
  rw [val_main_v24_apply]
  refine Finset.sum_congr rfl fun k _ => ?_
  have hl : lidx_main_v24 (ix2 r j) k = ix2 r k :=
    funext fun a => Fin.ext (by match a with | ⟨0, _⟩ => rfl | ⟨1, _⟩ => rfl)
  have hr : idx_main_v23 (ridx_main_v24 (ix2 r j) k) = ix2 j k :=
    funext fun a => Fin.ext (by match a with | ⟨0, _⟩ => rfl | ⟨1, _⟩ => rfl)
  rw [val_main_v23_apply, hl, hr, mean_at]

/-- The product of the node's own features with the second weight matrix, at node `r` and unit `j`. -/
private theorem dotr_at (x0 : FVec Ideal S50000x128 .f32) (x4 : FVec Ideal S128x128 .f32) (r : Fin 50000) (j : Fin 128) :
    val_main_v29 (F := Ideal) x0 x4 (ix2 r j) = ∑ k : Fin 128, x0 (ix2 r k) * x4 (ix2 j k) := by
  rw [val_main_v29_apply]
  refine Finset.sum_congr rfl fun k _ => ?_
  have hl : lidx_main_v29 (ix2 r j) k = ix2 r k :=
    funext fun a => Fin.ext (by match a with | ⟨0, _⟩ => rfl | ⟨1, _⟩ => rfl)
  have hr : idx_main_v28 (ridx_main_v29 (ix2 r j) k) = ix2 j k :=
    funext fun a => Fin.ext (by match a with | ⟨0, _⟩ => rfl | ⟨1, _⟩ => rfl)
  rw [val_main_v28_apply, hl, hr]

/-- The bias broadcast along the rows, at node `r` and unit `j`. -/
private theorem bias_at (x3 : FVec Ideal S128 .f32) (r : Fin 50000) (j : Fin 128) :
    val_main_v26 (F := Ideal) x3 (ix2 r j) = x3 (ix1 j) := by
  have h : idx_main_v25 (idx_main_v26 (ix2 r j)) = ix1 j :=
    funext fun a => Fin.ext (by match a with | ⟨0, _⟩ => rfl)
  rw [val_main_v26_apply, val_main_v25_apply, h]

/-- The reference's hidden array is layer one of the network. -/
theorem ref_layer1 (x0 : FVec Ideal S50000x128 .f32) (x1 : IVec S2x640000 32) (x2 : FVec Ideal S128x128 .f32)
    (x3 : FVec Ideal S128 .f32) (x4 : FVec Ideal S128x128 .f32) :
    val_main_v31 (F := Ideal) x0 x1 x2 x3 x4 = Sage.layer1 (Sage.Ops.Sop x1 x0) x0 (Sage.Ops.deg x1) x2 x4 x3 := by
  funext i
  obtain ⟨r, j, rfl⟩ : ∃ (r : Fin 50000) (j : Fin 128), i = ix2 r j := ⟨i 0, i 1, eq_ix2 i⟩
  rw [Sage.layer1_apply, val_main_v31_apply, val_main_v30_apply, val_main_v27_apply, val_main_call0_v0_apply,
    val_main_call0_cst_apply, dotl_at, dotr_at, bias_at]
  simp only [Ideal.addf_def, Ideal.maximumf_def, Ideal.ofBits_def]
  rfl

end Cert.RefValue

end
-- ==== Proof.RefLayer2.lean ====
/-
  The reference's second layer and its log-softmax, read one element at a time, over the hidden array as it stands
  (whatever it holds): the same mean aggregation and dense sums as layer one at 64 units, then the row maximum taken
  from −∞ (a fold of `max` along the row), the differences, their exponentials' row sum from zero, its logarithm.
-/
import proofs.«112490_j9113920602386_1_alg».proof.Proof.RefRead
import proofs.«112490_j9113920602386_1_alg».proof.Proof.Ops
import proofs.«112490_j9113920602386_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Idealize.ShloMosaic.Lib.IdealHost

noncomputable section

open scoped BigOperators

namespace Cert.RefValue

open Idealize.ShloMosaic Idealize.ShloMosaic.ValueIdx Cert.ReferenceIdeal Cert.ReferenceIdeal.ReadP

/-! ## The two shared host operators, as the reference spells them -/

/-- The reference's scatter index column is the edges' destination column. -/
private theorem dst_eq (x1 : IVec S2x640000 32) : val_main_v40 (F := Ideal) x1 = Sage.Ops.dstCol x1 := by
  unfold val_main_v40 val_main_v3 val_main_v2 Sage.Ops.dstCol
  rfl

/-- The reference's gather index column is the edges' wrapped source column. -/
private theorem src_eq (x1 : IVec S2x640000 32) : val_main_v37 (F := Ideal) x1 = Sage.Ops.srcCol x1 := by
  unfold val_main_v37 val_main_v36 val_main_v33 val_main_v35 val_main_v32 val_main_v34 val_main_c_4 val_main_c_5
    val_main_v1 val_main_v0 Sage.Ops.srcCol Sage.Ops.srcVec
  rfl

/-- The reference's second scatter-add of gathered rows is the neighbourhood sum of the hidden array. -/
private theorem sop2_eq (x0 : FVec Ideal S50000x128 .f32) (x1 : IVec S2x640000 32) (x2 : FVec Ideal S128x128 .f32)
    (x3 : FVec Ideal S128 .f32) (x4 : FVec Ideal S128x128 .f32) :
    val_main_v41 (F := Ideal) x0 x1 x2 x3 x4 = Sage.Ops.Sop x1 (val_main_v31 (F := Ideal) x0 x1 x2 x3 x4) := by
  unfold val_main_v41 val_main_v38 val_main_v39 val_main_cst_6 Sage.Ops.Sop
  generalize val_main_v31 (F := Ideal) x0 x1 x2 x3 x4 = H
  rw [dst_eq, src_eq]
  rfl

/-- The reference's second count of destinations is the in-degree. -/
private theorem deg2_eq (x1 : IVec S2x640000 32) : val_main_v45 (F := Ideal) x1 = Sage.Ops.deg x1 := by
  unfold val_main_v45 val_main_v43 val_main_v44 val_main_v42 val_main_cst_7 val_main_cst_8 val_main_v3 val_main_v2
    Sage.Ops.deg Sage.Ops.dstCol
  rfl

/-! ## The dense part at one node and one class -/

/-- The quotient of the hidden array's neighbourhood sum by the clamped in-degree, at node `r` and feature `k`. -/
private theorem mean2_at (x0 : FVec Ideal S50000x128 .f32) (x1 : IVec S2x640000 32) (x2 : FVec Ideal S128x128 .f32)
    (x3 : FVec Ideal S128 .f32) (x4 : FVec Ideal S128x128 .f32) (r : Fin 50000) (k : Fin 128) :
    val_main_v50 (F := Ideal) x0 x1 x2 x3 x4 (ix2 r k)
      = Sage.mean (Sage.Ops.Sop x1 (val_main_v31 (F := Ideal) x0 x1 x2 x3 x4) (ix2 r k)) (Sage.Ops.deg x1 (ix1 r)) := by
  have h : idx_main_v48 (idx_main_v49 (ix2 r k)) = ix1 r :=
    funext fun a => Fin.ext (by match a with | ⟨0, _⟩ => rfl)
  rw [val_main_v50_apply, val_main_v49_apply, val_main_v48_apply, val_main_v47_apply, val_main_v46_apply,
    val_main_cst_9_apply, h, sop2_eq, deg2_eq]
  simp only [Ideal.hostDivf_def, Ideal.maximumf_def, Ideal.ofBits_def]
  rfl

/-- The means against the first weight matrix, at node `r` and class `j`. -/
private theorem dotl2_at (x0 : FVec Ideal S50000x128 .f32) (x1 : IVec S2x640000 32) (x2 : FVec Ideal S128x128 .f32)
    (x3 : FVec Ideal S128 .f32) (x4 : FVec Ideal S128x128 .f32) (x5 : FVec Ideal S64x128 .f32) (r : Fin 50000) (j : Fin 64) :
    val_main_v52 (F := Ideal) x0 x1 x2 x3 x4 x5 (ix2 r j)
      = ∑ k : Fin 128, Sage.mean (Sage.Ops.Sop x1 (val_main_v31 (F := Ideal) x0 x1 x2 x3 x4) (ix2 r k)) (Sage.Ops.deg x1 (ix1 r))
          * x5 (ix2 j k) := by
  rw [val_main_v52_apply]
  refine Finset.sum_congr rfl fun k _ => ?_
  have hl : lidx_main_v52 (ix2 r j) k = ix2 r k :=
    funext fun a => Fin.ext (by match a with | ⟨0, _⟩ => rfl | ⟨1, _⟩ => rfl)
  have hr : idx_main_v51 (ridx_main_v52 (ix2 r j) k) = ix2 j k :=
    funext fun a => Fin.ext (by match a with | ⟨0, _⟩ => rfl | ⟨1, _⟩ => rfl)
  rw [val_main_v51_apply, hl, hr, mean2_at]

/-- The hidden row against the second weight matrix, at node `r` and class `j`. -/
private theorem dotr2_at (x0 : FVec Ideal S50000x128 .f32) (x1 : IVec S2x640000 32) (x2 : FVec Ideal S128x128 .f32)
    (x3 : FVec Ideal S128 .f32) (x4 : FVec Ideal S128x128 .f32) (x7 : FVec Ideal S64x128 .f32) (r : Fin 50000) (j : Fin 64) :
    val_main_v57 (F := Ideal) x0 x1 x2 x3 x4 x7 (ix2 r j)
      = ∑ k : Fin 128, val_main_v31 (F := Ideal) x0 x1 x2 x3 x4 (ix2 r k) * x7 (ix2 j k) := by
  rw [val_main_v57_apply]
  refine Finset.sum_congr rfl fun k _ => ?_
  have hl : lidx_main_v57 (ix2 r j) k = ix2 r k :=
    funext fun a => Fin.ext (by match a with | ⟨0, _⟩ => rfl | ⟨1, _⟩ => rfl)
  have hr : idx_main_v56 (ridx_main_v57 (ix2 r j) k) = ix2 j k :=
    funext fun a => Fin.ext (by match a with | ⟨0, _⟩ => rfl | ⟨1, _⟩ => rfl)
  rw [val_main_v56_apply, hl, hr]

/-- The bias broadcast along the rows, at node `r` and class `j`. -/
private theorem bias2_at (x6 : FVec Ideal S64 .f32) (r : Fin 50000) (j : Fin 64) :
    val_main_v54 (F := Ideal) x6 (ix2 r j) = x6 (ix1 j) := by
  have h : idx_main_v53 (idx_main_v54 (ix2 r j)) = ix1 j :=
    funext fun a => Fin.ext (by match a with | ⟨0, _⟩ => rfl)
  rw [val_main_v54_apply, val_main_v53_apply, h]

/-- The reference's logits are the second layer's pre-activations over the hidden array. -/
private theorem logit_at (x0 : FVec Ideal S50000x128 .f32) (x1 : IVec S2x640000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) (r : Fin 50000) (j : Fin 64) :
    val_main_v58 (F := Ideal) x0 x1 x2 x3 x4 x5 x6 x7 (ix2 r j)
      = Sage.preAt (Sage.Ops.Sop x1 (val_main_v31 (F := Ideal) x0 x1 x2 x3 x4)) (val_main_v31 (F := Ideal) x0 x1 x2 x3 x4)
          (Sage.Ops.deg x1) x5 x7 x6 r j := by
  rw [val_main_v58_apply, val_main_v55_apply, dotl2_at, dotr2_at, bias2_at]
  simp only [Ideal.addf_def]
  rfl

/-! ## The log-softmax along a row -/

/-- The host's maximum-reduce of an array along its rows from −∞, at node `r`, is the fold of `max` along the row. -/
private theorem rowfold_at (Z : FVec Ideal S50000x64 .f32) (r : Fin 50000) :
    Host.reduce FloatOps.maximumf Z (val_main_call1_cst (F := Ideal)) Gen.reducesTo_S50000x64_S50000_d1 Gen.h_S_ (ix1 r)
      = Finset.univ.fold max Sage.ninfW (fun j' : Fin 64 => Z (ix2 r j')) := by
  have hR : S50000x64.Reduces [1] S50000 := by decide
  rw [Host.reduce_eq_fold_single FloatOps.maximumf Z _ Gen.reducesTo_S50000x64_S50000_d1 hR Gen.h_S_, val_main_call1_cst_apply]
  have e : Z ∘ hR.lift (ix1 r) = fun j' : Fin 64 => Z (ix2 r j') :=
    funext fun k => congrArg Z (funext fun a => Fin.ext (by match a with | ⟨0, _⟩ => rfl | ⟨1, _⟩ => rfl))
  rw [e]
  rfl

/-- The reference's row maximum at node `r`: that fold, taken once more against −∞. -/
private theorem rowmax_at (x0 : FVec Ideal S50000x128 .f32) (x1 : IVec S2x640000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) (r : Fin 50000) :
    val_main_call1_v2 (F := Ideal) x0 x1 x2 x3 x4 x5 x6 x7 (ix1 r)
      = Sage.rowMax (fun j' : Fin 64 => val_main_v58 (F := Ideal) x0 x1 x2 x3 x4 x5 x6 x7 (ix2 r j')) := by
  rw [val_main_call1_v2_apply, val_main_call1_v1_apply, val_main_call1_cst_0_apply]
  unfold val_main_call1_v0
  rw [rowfold_at]
  rfl

/-- A logit less its row's maximum, at node `r` and class `j`. -/
private theorem shift_at (x0 : FVec Ideal S50000x128 .f32) (x1 : IVec S2x640000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) (r : Fin 50000) (j : Fin 64) :
    val_main_call1_v5 (F := Ideal) x0 x1 x2 x3 x4 x5 x6 x7 (ix2 r j)
      = val_main_v58 (F := Ideal) x0 x1 x2 x3 x4 x5 x6 x7 (ix2 r j)
          - Sage.rowMax (fun j' : Fin 64 => val_main_v58 (F := Ideal) x0 x1 x2 x3 x4 x5 x6 x7 (ix2 r j')) := by
  have h : idx_main_call1_v3 (idx_main_call1_v4 (ix2 r j)) = ix1 r :=
    funext fun a => Fin.ext (by match a with | ⟨0, _⟩ => rfl)
  rw [val_main_call1_v5_apply, val_main_call1_v4_apply, val_main_call1_v3_apply, h, rowmax_at]
  rfl

/-- The logarithm of the row's sum of exponentials of the shifted logits, at node `r` (the same for every class `j`). -/
private theorem lse_at (x0 : FVec Ideal S50000x128 .f32) (x1 : IVec S2x640000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) (r : Fin 50000) (j : Fin 64) :
    val_main_call1_v10 (F := Ideal) x0 x1 x2 x3 x4 x5 x6 x7 (ix2 r j)
      = Ideal.log (∑ j' : Fin 64, Ideal.exp (val_main_v58 (F := Ideal) x0 x1 x2 x3 x4 x5 x6 x7 (ix2 r j')
          - Sage.rowMax (fun j'' : Fin 64 => val_main_v58 (F := Ideal) x0 x1 x2 x3 x4 x5 x6 x7 (ix2 r j'')))) := by
  have h : idx_main_call1_v8 (idx_main_call1_v10 (ix2 r j)) = ix1 r :=
    funext fun a => Fin.ext (by match a with | ⟨0, _⟩ => rfl)
  rw [val_main_call1_v10_apply, val_main_call1_v9_apply, val_main_call1_v8_apply, h, val_main_call1_v7_apply,
    val_main_call1_cst_1_apply]
  simp only [Ideal.hostUnary_log_def, Ideal.ofBits_def, Ideal.ofBits_zero_f32, zero_add]
  refine congrArg Ideal.log (Finset.sum_congr rfl fun k _ => ?_)
  have hk : idx_main_call1_v7 (ix1 r) k = ix2 r k :=
    funext fun a => Fin.ext (by match a with | ⟨0, _⟩ => rfl | ⟨1, _⟩ => rfl)
  rw [hk, val_main_call1_v6_apply, shift_at, Ideal.hostUnary_exp_def]

/-- The reference's result is layer two of the network over its hidden array. -/
theorem ref_layer2 (x0 : FVec Ideal S50000x128 .f32) (x1 : IVec S2x640000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) :
    val_main_v59 (F := Ideal) x0 x1 x2 x3 x4 x5 x6 x7
      = Sage.layer2 (Sage.Ops.Sop x1 (val_main_v31 (F := Ideal) x0 x1 x2 x3 x4)) (val_main_v31 (F := Ideal) x0 x1 x2 x3 x4)
          (Sage.Ops.deg x1) x5 x7 x6 := by
  funext i
  obtain ⟨r, j, rfl⟩ : ∃ (r : Fin 50000) (j : Fin 64), i = ix2 r j := ⟨i 0, i 1, eq_ix2 i⟩
  rw [Sage.layer2_apply, val_main_v59_apply, shift_at, lse_at]
  simp only [logit_at, Ideal.subf_def]
  rfl

end Cert.RefValue

end
-- ==== Proof.RefValue.lean ====
/-
  The reference's result as the network of its arguments: its two layers, one after the other.
-/
import proofs.«112490_j9113920602386_1_alg».proof.Proof.RefLayer1
import proofs.«112490_j9113920602386_1_alg».proof.Proof.RefLayer2

noncomputable section

namespace Cert.RefValue

open Idealize.ShloMosaic Cert.ReferenceIdeal Cert.ReferenceIdeal.ReadP

/-- The reference's last stage is the network of its arguments. -/
theorem ref_value (x0 : FVec Ideal S50000x128 .f32) (x1 : IVec S2x640000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) :
    val_main_v59 (F := Ideal) x0 x1 x2 x3 x4 x5 x6 x7
      = Sage.network (Sage.Ops.Sop x1) (Sage.Ops.deg x1) x0 x2 x3 x4 x5 x6 x7 := by
  rw [ref_layer2, ref_layer1]
  rfl

end Cert.RefValue

end
-- ==== Proof.RefStages.lean ====
/-
  The reference's run read back: after its 88 host operations the result buffer holds the last of the per-operation
  stages (each operation's value as a function of the program's arguments) at the arguments' launch contents, and no
  operation writes an argument.  Proved stretch by stretch along the operation list: a stretch of a few operations
  from any valuation whose earlier buffers hold their stages leaves the buffers it writes at theirs.
-/
import proofs.«112490_j9113920602386_1_alg».proof.Proof.RefRead
import Idealize.ShloMosaic.Lib.StableHlo.Run

noncomputable section

namespace Cert.RefStages

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

section Stretches

variable {F : FTy → Type} [FloatOps F]

/-- A reference as the device's buffer. -/
local notation:max "↟" r:max => Proc.devRef Proc.tc r

/-! ### The operation list, cut where few values are still awaited

Ten stretches, in program order; each is the corresponding slice of `ops`, word for word.  The cuts fall after the
operations that write `main_v9`, `main_v17`, `main_v27`, `main_v31`, `main_v38`, `main_v45`, `main_v50`, `main_v58` and
`main_call1_v5`: at each of them only two to four computed values (and the arguments not yet consumed) are read again. -/

/-- Operations 1–12: the two index rows of the edge list, and the wrapped source row as a gather index column. -/
private abbrev sA : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)) ]

/-- Operations 13–23: the first layer's neighbourhood sums and in-degrees. -/
private abbrev sB : List (HloOp τ sig (Elt F)) :=
  [ binary main_arg0 main_v9 main_v10 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S640000x1 ![0] bcast_S640000_S640000x1_0 : (⟨S640000, .i32⟩ : BufTy).Contents (Elt F) → (⟨S640000x1, .i32⟩ : BufTy).Contents (Elt F)),
    ternary main_v11 main_v12 main_v10 main_v13 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_1 (constant S_ .f32 0x3F800000#32),
    unary main_cst_1 main_v14 (broadcastInDim S640000 ![] bcast_S_S640000 : (⟨S_, .f32⟩ : BufTy).Contents (Elt F) → (⟨S640000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S640000x1 ![0] bcast_S640000_S640000x1_0 : (⟨S640000, .i32⟩ : BufTy).Contents (Elt F) → (⟨S640000x1, .i32⟩ : BufTy).Contents (Elt F)),
    ternary main_v15 main_v16 main_v14 main_v17 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)) ]

/-- Operations 24–34: the first layer's mean, its product with the first weight, and the bias. -/
private abbrev sC : List (HloOp τ sig (Elt F)) :=
  [ nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)) ]

/-- Operations 35–40: the first layer's second product, the sum and the maximum with zero. -/
private abbrev sD : List (HloOp τ sig (Elt F)) :=
  [ unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v30) (TRef.of (T := ⟨S50000x128, .f32⟩) main_call0_v0) (TRef.of (T := ⟨S50000x128, .f32⟩) main_v31) maximumf ]

/-- Operations 41–49: the second layer's gather of the hidden rows. -/
private abbrev sE : List (HloOp τ sig (Elt F)) :=
  [ nullary main_c_4 (constantI S_ 32 0#32),
    unary main_c_4 main_v32 (broadcastInDim S640000 ![] bcast_S_S640000 : (⟨S_, .i32⟩ : BufTy).Contents (Elt F) → (⟨S640000, .i32⟩ : BufTy).Contents (Elt F)),
    binary main_v1 main_v32 main_v33 (cmpi .slt : (⟨S640000, .i32⟩ : BufTy).Contents (Elt F) → (⟨S640000, .i32⟩ : BufTy).Contents (Elt F) → (⟨S640000, .i1⟩ : BufTy).Contents (Elt F)),
    nullary main_c_5 (constantI S_ 32 50000#32),
    unary main_c_5 main_v34 (broadcastInDim S640000 ![] bcast_S_S640000 : (⟨S_, .i32⟩ : BufTy).Contents (Elt F) → (⟨S640000, .i32⟩ : BufTy).Contents (Elt F)),
    binary main_v1 main_v34 main_v35 (addi : (⟨S640000, .i32⟩ : BufTy).Contents (Elt F) → (⟨S640000, .i32⟩ : BufTy).Contents (Elt F) → (⟨S640000, .i32⟩ : BufTy).Contents (Elt F)),
    ternary main_v33 main_v35 main_v1 main_v36 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v36 main_v37 (broadcastInDim S640000x1 ![0] bcast_S640000_S640000x1_0 : (⟨S640000, .i32⟩ : BufTy).Contents (Elt F) → (⟨S640000x1, .i32⟩ : BufTy).Contents (Elt F)),
    binary main_v31 main_v37 main_v38 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) ]

/-- Operations 50–59: the second layer's neighbourhood sums and in-degrees. -/
private abbrev sG : List (HloOp τ sig (Elt F)) :=
  [ nullary main_cst_6 (constant S_ .f32 0x00000000#32),
    unary main_cst_6 main_v39 (broadcastInDim S50000x128 ![] bcast_S_S50000x128 : (⟨S_, .f32⟩ : BufTy).Contents (Elt F) → (⟨S50000x128, .f32⟩ : BufTy).Contents (Elt F)),
    unary main_v3 main_v40 (broadcastInDim S640000x1 ![0] bcast_S640000_S640000x1_0 : (⟨S640000, .i32⟩ : BufTy).Contents (Elt F) → (⟨S640000x1, .i32⟩ : BufTy).Contents (Elt F)),
    ternary main_v39 main_v40 main_v38 main_v41 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_7 (constant S_ .f32 0x3F800000#32),
    unary main_cst_7 main_v42 (broadcastInDim S640000 ![] bcast_S_S640000 : (⟨S_, .f32⟩ : BufTy).Contents (Elt F) → (⟨S640000, .f32⟩ : BufTy).Contents (Elt F)),
    nullary main_cst_8 (constant S_ .f32 0x00000000#32),
    unary main_cst_8 main_v43 (broadcastInDim S50000 ![] bcast_S_S50000 : (⟨S_, .f32⟩ : BufTy).Contents (Elt F) → (⟨S50000, .f32⟩ : BufTy).Contents (Elt F)),
    unary main_v3 main_v44 (broadcastInDim S640000x1 ![0] bcast_S640000_S640000x1_0 : (⟨S640000, .i32⟩ : BufTy).Contents (Elt F) → (⟨S640000x1, .i32⟩ : BufTy).Contents (Elt F)),
    ternary main_v43 main_v44 main_v42 main_v45 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)) ]

/-- Operations 60–65: the second layer's mean. -/
private abbrev sH : List (HloOp τ sig (Elt F)) :=
  [ nullary main_cst_9 (constant S_ .f32 0x3F800000#32),
    unary main_cst_9 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x128 ![0, 1] bcast_S50000x1_S50000x128_0_1 : (⟨S50000x1, .f32⟩ : BufTy).Contents (Elt F) → (⟨S50000x128, .f32⟩ : BufTy).Contents (Elt F)),
    binary main_v41 main_v49 main_v50 (Host.divf : (⟨S50000x128, .f32⟩ : BufTy).Contents (Elt F) → (⟨S50000x128, .f32⟩ : BufTy).Contents (Elt F) → (⟨S50000x128, .f32⟩ : BufTy).Contents (Elt F)) ]

/-- Operations 66–73: the second layer's two products, the bias and their sum. -/
private abbrev sJ : List (HloOp τ sig (Elt F)) :=
  [ unary main_arg5 main_v51 ((transpose S128x64 [1, 0] · transposes_S64x128_S128x64_1_0) : (⟨S64x128, .f32⟩ : BufTy).Contents (Elt F) → (⟨S128x64, .f32⟩ : BufTy).Contents (Elt F)),
    binary main_v50 main_v51 main_v52 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg6 main_v53 (broadcastInDim S1x64 ![1] bcast_S64_S1x64_1 : (⟨S64, .f32⟩ : BufTy).Contents (Elt F) → (⟨S1x64, .f32⟩ : BufTy).Contents (Elt F)),
    unary main_v53 main_v54 (broadcastInDim S50000x64 ![0, 1] bcast_S1x64_S50000x64_0_1 : (⟨S1x64, .f32⟩ : BufTy).Contents (Elt F) → (⟨S50000x64, .f32⟩ : BufTy).Contents (Elt F)),
    binary main_v52 main_v54 main_v55 (addf : (⟨S50000x64, .f32⟩ : BufTy).Contents (Elt F) → (⟨S50000x64, .f32⟩ : BufTy).Contents (Elt F) → (⟨S50000x64, .f32⟩ : BufTy).Contents (Elt F)),
    unary main_arg7 main_v56 ((transpose S128x64 [1, 0] · transposes_S64x128_S128x64_1_0) : (⟨S64x128, .f32⟩ : BufTy).Contents (Elt F) → (⟨S128x64, .f32⟩ : BufTy).Contents (Elt F)),
    binary main_v31 main_v56 main_v57 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v55 main_v57 main_v58 (addf : (⟨S50000x64, .f32⟩ : BufTy).Contents (Elt F) → (⟨S50000x64, .f32⟩ : BufTy).Contents (Elt F) → (⟨S50000x64, .f32⟩ : BufTy).Contents (Elt F)) ]

/-- Operations 74–81: the row maximum and the shifted rows. -/
private abbrev sK : List (HloOp τ sig (Elt F)) :=
  [ TRef.nullary (TRef.of (T := ⟨S_, .f32⟩) main_call1_cst) (constant S_ .f32 0xFF800000#32),
    TRef.binary (TRef.of (T := ⟨S50000x64, .f32⟩) main_v58) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v58) (TRef.of (T := ⟨S50000x64, .f32⟩) main_call1_v4) (TRef.of (T := ⟨S50000x64, .f32⟩) main_call1_v5) subf ]

/-- Operations 82–88: the logarithm of the row sums of exponentials, subtracted. -/
private abbrev sL : List (HloOp τ sig (Elt F)) :=
  [ TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v59) subf ]

/-- The list is its ten stretches in a row. -/
private theorem ops_cut :
    (ops : List (HloOp τ sig (Elt F))) = sA ++ (sB ++ (sC ++ (sD ++ (sE ++ (sG ++ (sH ++ (sJ ++ (sK ++ sL)))))))) := rfl

variable (V W : Valuation τ sig (Elt F))

/-- The arguments' contents in the initial valuation `V`. -/
local notation "𝐚0" => V ↟main_arg0
local notation "𝐚1" => V ↟main_arg1
local notation "𝐚2" => V ↟main_arg2
local notation "𝐚3" => V ↟main_arg3
local notation "𝐚4" => V ↟main_arg4
local notation "𝐚5" => V ↟main_arg5
local notation "𝐚6" => V ↟main_arg6
local notation "𝐚7" => V ↟main_arg7

/-! ### What a valuation `W` holds at each cut

At a cut, `W` holds, at every buffer a later operation still reads, that buffer's stage at the arguments' contents in `V`
(an argument's own buffer: its contents in `V`). -/

/-- Before the first operation: the arguments. -/
private structure I0 : Prop where
  a0 : W ↟main_arg0 = 𝐚0
  a1 : W ↟main_arg1 = 𝐚1
  a2 : W ↟main_arg2 = 𝐚2
  a3 : W ↟main_arg3 = 𝐚3
  a4 : W ↟main_arg4 = 𝐚4
  a5 : W ↟main_arg5 = 𝐚5
  a6 : W ↟main_arg6 = 𝐚6
  a7 : W ↟main_arg7 = 𝐚7

/-- After operation 12: both index rows and the gather index column; the edge list itself is read no more. -/
private structure IA : Prop where
  v1 : W ↟main_v1 = val_main_v1 𝐚1
  v3 : W ↟main_v3 = val_main_v3 𝐚1
  v9 : W ↟main_v9 = val_main_v9 𝐚1
  a0 : W ↟main_arg0 = 𝐚0
  a2 : W ↟main_arg2 = 𝐚2
  a3 : W ↟main_arg3 = 𝐚3
  a4 : W ↟main_arg4 = 𝐚4
  a5 : W ↟main_arg5 = 𝐚5
  a6 : W ↟main_arg6 = 𝐚6
  a7 : W ↟main_arg7 = 𝐚7

/-- After operation 23: the index rows, the first neighbourhood sums and the first in-degrees. -/
private structure IB : Prop where
  v1 : W ↟main_v1 = val_main_v1 𝐚1
  v3 : W ↟main_v3 = val_main_v3 𝐚1
  v13 : W ↟main_v13 = val_main_v13 𝐚0 𝐚1
  v17 : W ↟main_v17 = val_main_v17 𝐚1
  a0 : W ↟main_arg0 = 𝐚0
  a2 : W ↟main_arg2 = 𝐚2
  a3 : W ↟main_arg3 = 𝐚3
  a4 : W ↟main_arg4 = 𝐚4
  a5 : W ↟main_arg5 = 𝐚5
  a6 : W ↟main_arg6 = 𝐚6
  a7 : W ↟main_arg7 = 𝐚7

/-- After operation 34: the index rows and the first layer's aggregated half with its bias. -/
private structure IC : Prop where
  v1 : W ↟main_v1 = val_main_v1 𝐚1
  v3 : W ↟main_v3 = val_main_v3 𝐚1
  v27 : W ↟main_v27 = val_main_v27 𝐚0 𝐚1 𝐚2 𝐚3
  a0 : W ↟main_arg0 = 𝐚0
  a4 : W ↟main_arg4 = 𝐚4
  a5 : W ↟main_arg5 = 𝐚5
  a6 : W ↟main_arg6 = 𝐚6
  a7 : W ↟main_arg7 = 𝐚7

/-- After operation 40: the index rows and the hidden layer. -/
private structure ID : Prop where
  v1 : W ↟main_v1 = val_main_v1 𝐚1
  v3 : W ↟main_v3 = val_main_v3 𝐚1
  v31 : W ↟main_v31 = val_main_v31 𝐚0 𝐚1 𝐚2 𝐚3 𝐚4
  a5 : W ↟main_arg5 = 𝐚5
  a6 : W ↟main_arg6 = 𝐚6
  a7 : W ↟main_arg7 = 𝐚7

/-- After operation 49: the destination row, the hidden layer and its gathered rows. -/
private structure IE : Prop where
  v3 : W ↟main_v3 = val_main_v3 𝐚1
  v31 : W ↟main_v31 = val_main_v31 𝐚0 𝐚1 𝐚2 𝐚3 𝐚4
  v38 : W ↟main_v38 = val_main_v38 𝐚0 𝐚1 𝐚2 𝐚3 𝐚4
  a5 : W ↟main_arg5 = 𝐚5
  a6 : W ↟main_arg6 = 𝐚6
  a7 : W ↟main_arg7 = 𝐚7

/-- After operation 59: the hidden layer, the second neighbourhood sums and the second in-degrees. -/
private structure IG : Prop where
  v31 : W ↟main_v31 = val_main_v31 𝐚0 𝐚1 𝐚2 𝐚3 𝐚4
  v41 : W ↟main_v41 = val_main_v41 𝐚0 𝐚1 𝐚2 𝐚3 𝐚4
  v45 : W ↟main_v45 = val_main_v45 𝐚1
  a5 : W ↟main_arg5 = 𝐚5
  a6 : W ↟main_arg6 = 𝐚6
  a7 : W ↟main_arg7 = 𝐚7

/-- After operation 65: the hidden layer and the second layer's mean. -/
private structure IH : Prop where
  v31 : W ↟main_v31 = val_main_v31 𝐚0 𝐚1 𝐚2 𝐚3 𝐚4
  v50 : W ↟main_v50 = val_main_v50 𝐚0 𝐚1 𝐚2 𝐚3 𝐚4
  a5 : W ↟main_arg5 = 𝐚5
  a6 : W ↟main_arg6 = 𝐚6
  a7 : W ↟main_arg7 = 𝐚7

/-- After operation 73: the second layer before its normalisation. -/
private structure IJ : Prop where
  v58 : W ↟main_v58 = val_main_v58 𝐚0 𝐚1 𝐚2 𝐚3 𝐚4 𝐚5 𝐚6 𝐚7

/-- After operation 81: the rows less their maxima. -/
private structure IK : Prop where
  c5 : W ↟main_call1_v5 = val_main_call1_v5 𝐚0 𝐚1 𝐚2 𝐚3 𝐚4 𝐚5 𝐚6 𝐚7

/-- Contents moved to a typed reference's buffer type and back are the contents. -/
private theorem ofBuf_toBuf {T : BufTy} {Val : EltTy → Type} (x : TRef sig T) (v : T.Contents Val) :
    x.ofBuf (x.toBuf v) = v := by
  obtain ⟨r, h, hd, hs⟩ := x
  subst h
  rfl

/-! ### One stretch at a time

In each stretch the fold is read at a buffer (`after_results`: an operation's own buffer takes its function of the
operands' contents, any other buffer keeps what it had), the incoming contents are replaced by their stages, and what
is left is the stage's definition opened over this stretch's operations only (in the two called functions' stretches,
after the round trips through a typed reference's buffer type are dropped). -/

private theorem stA (h : I0 V W) : IA V (after sA W) := by
  refine ⟨?_, ?_, ?_, ?_, ?_, ?_, ?_, ?_, ?_, ?_⟩
  · after_results; rw [h.a1]; rfl
  · after_results; rw [h.a1]; rfl
  · after_results; rw [h.a1]; rfl
  · after_results; exact h.a0
  · after_results; exact h.a2
  · after_results; exact h.a3
  · after_results; exact h.a4
  · after_results; exact h.a5
  · after_results; exact h.a6
  · after_results; exact h.a7

private theorem stB (h : IA V W) : IB V (after sB W) := by
  refine ⟨?_, ?_, ?_, ?_, ?_, ?_, ?_, ?_, ?_, ?_, ?_⟩
  · after_results; exact h.v1
  · after_results; exact h.v3
  · after_results; rw [h.v3, h.a0, h.v9]; rfl
  · after_results; rw [h.v3]; rfl
  · after_results; exact h.a0
  · after_results; exact h.a2
  · after_results; exact h.a3
  · after_results; exact h.a4
  · after_results; exact h.a5
  · after_results; exact h.a6
  · after_results; exact h.a7

private theorem stC (h : IB V W) : IC V (after sC W) := by
  refine ⟨?_, ?_, ?_, ?_, ?_, ?_, ?_, ?_⟩
  · after_results; exact h.v1
  · after_results; exact h.v3
  · after_results; rw [h.v13, h.v17, h.a2, h.a3]; rfl
  · after_results; exact h.a0
  · after_results; exact h.a4
  · after_results; exact h.a5
  · after_results; exact h.a6
  · after_results; exact h.a7

private theorem stD (h : IC V W) : ID V (after sD W) := by
  refine ⟨?_, ?_, ?_, ?_, ?_, ?_⟩
  · after_results; exact h.v1
  · after_results; exact h.v3
  · after_results; rw [h.v27, h.a0, h.a4]; rfl
  · after_results; exact h.a5
  · after_results; exact h.a6
  · after_results; exact h.a7

private theorem stE (h : ID V W) : IE V (after sE W) := by
  refine ⟨?_, ?_, ?_, ?_, ?_, ?_⟩
  · after_results; exact h.v3
  · after_results; exact h.v31
  · after_results; rw [h.v31, h.v1]; rfl
  · after_results; exact h.a5
  · after_results; exact h.a6
  · after_results; exact h.a7

private theorem stG (h : IE V W) : IG V (after sG W) := by
  refine ⟨?_, ?_, ?_, ?_, ?_, ?_⟩
  · after_results; exact h.v31
  · after_results; rw [h.v3, h.v38]; rfl
  · after_results; rw [h.v3]; rfl
  · after_results; exact h.a5
  · after_results; exact h.a6
  · after_results; exact h.a7

private theorem stH (h : IG V W) : IH V (after sH W) := by
  refine ⟨?_, ?_, ?_, ?_, ?_⟩
  · after_results; exact h.v31
  · after_results; rw [h.v41, h.v45]; rfl
  · after_results; exact h.a5
  · after_results; exact h.a6
  · after_results; exact h.a7

private theorem stJ (h : IH V W) : IJ V (after sJ W) := by
  refine ⟨?_⟩
  after_results; rw [h.v50, h.a5, h.a6, h.v31, h.a7]; rfl

private theorem stK (h : IJ V W) : IK V (after sK W) := by
  refine ⟨?_⟩
  after_results; rw [h.v58]; simp only [ofBuf_toBuf]; rfl

private theorem stL (h : IK V W) :
    after sL W ↟main_v59 = val_main_v59 𝐚0 𝐚1 𝐚2 𝐚3 𝐚4 𝐚5 𝐚6 𝐚7 := by
  after_results; rw [h.c5]; simp only [ofBuf_toBuf]; rfl

/-- The fold over the whole list at the result buffer, at any float family. -/
private theorem result_gen :
    after (ops : List (HloOp τ sig (Elt F))) V ↟main_v59 = val_main_v59 𝐚0 𝐚1 𝐚2 𝐚3 𝐚4 𝐚5 𝐚6 𝐚7 := by
  rw [ops_cut]
  simp only [after_append]
  exact stL V _ (stK V _ (stJ V _ (stH V _ (stG V _ (stE V _ (stD V _ (stC V _ (stB V _ (stA V V
    ⟨rfl, rfl, rfl, rfl, rfl, rfl, rfl, rfl⟩)))))))))

/-- No operation of the list writes the reference `r`, given that `r` is none of the result references: each operation
    writes its one result buffer. -/
local macro "not_written" : tactic => `(tactic| (
  refine after_of_forall_not_mem _ _ (List.forall_iff_forall_mem.mp ?_)
  simp only [ops, List.Forall, nullary_writes, unary_writes, binary_writes, ternary_writes, reshape_writes,
    Finset.mem_singleton]
  repeat' apply And.intro
  all_goals exact devRef_ne_of_ne (by decide)))

private theorem arg0_gen : after (ops : List (HloOp τ sig (Elt F))) V ↟main_arg0 = 𝐚0 := by not_written
private theorem arg1_gen : after (ops : List (HloOp τ sig (Elt F))) V ↟main_arg1 = 𝐚1 := by not_written
private theorem arg2_gen : after (ops : List (HloOp τ sig (Elt F))) V ↟main_arg2 = 𝐚2 := by not_written
private theorem arg3_gen : after (ops : List (HloOp τ sig (Elt F))) V ↟main_arg3 = 𝐚3 := by not_written
private theorem arg4_gen : after (ops : List (HloOp τ sig (Elt F))) V ↟main_arg4 = 𝐚4 := by not_written
private theorem arg5_gen : after (ops : List (HloOp τ sig (Elt F))) V ↟main_arg5 = 𝐚5 := by not_written
private theorem arg6_gen : after (ops : List (HloOp τ sig (Elt F))) V ↟main_arg6 = 𝐚6 := by not_written
private theorem arg7_gen : after (ops : List (HloOp τ sig (Elt F))) V ↟main_arg7 = 𝐚7 := by not_written

end Stretches

/-- After all the operations, from any valuation `V`, the result buffer holds the last stage of the arguments' contents. -/
theorem after_ops_result (V : Valuation τ sig (Elt Ideal)) :
    after (ops (F := Ideal)) V (Proc.devRef .tc main_v59)
      = val_main_v59 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  result_gen V

/-- No operation writes an argument. -/
theorem after_ops_arg (V : Valuation τ sig (Elt Ideal)) :
    after (ops (F := Ideal)) V (Proc.devRef .tc main_arg0) = V (Proc.devRef .tc main_arg0)
    ∧ after (ops (F := Ideal)) V (Proc.devRef .tc main_arg1) = V (Proc.devRef .tc main_arg1)
    ∧ after (ops (F := Ideal)) V (Proc.devRef .tc main_arg2) = V (Proc.devRef .tc main_arg2)
    ∧ after (ops (F := Ideal)) V (Proc.devRef .tc main_arg3) = V (Proc.devRef .tc main_arg3)
    ∧ after (ops (F := Ideal)) V (Proc.devRef .tc main_arg4) = V (Proc.devRef .tc main_arg4)
    ∧ after (ops (F := Ideal)) V (Proc.devRef .tc main_arg5) = V (Proc.devRef .tc main_arg5)
    ∧ after (ops (F := Ideal)) V (Proc.devRef .tc main_arg6) = V (Proc.devRef .tc main_arg6)
    ∧ after (ops (F := Ideal)) V (Proc.devRef .tc main_arg7) = V (Proc.devRef .tc main_arg7) :=
  ⟨arg0_gen V, arg1_gen V, arg2_gen V, arg3_gen V, arg4_gen V, arg5_gen V, arg6_gen V, arg7_gen V⟩

/-- The reference's run: every weakly fair execution terminates with the result at the last stage of the arguments'
    launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v59).trans (after_ops_result _),
     (h c main_arg0).trans (after_ops_arg _).1,
     (h c main_arg1).trans (after_ops_arg _).2.1,
     (h c main_arg2).trans (after_ops_arg _).2.2.1,
     (h c main_arg3).trans (after_ops_arg _).2.2.2.1,
     (h c main_arg4).trans (after_ops_arg _).2.2.2.2.1,
     (h c main_arg5).trans (after_ops_arg _).2.2.2.2.2.1,
     (h c main_arg6).trans (after_ops_arg _).2.2.2.2.2.2.1,
     (h c main_arg7).trans (after_ops_arg _).2.2.2.2.2.2.2⟩) (run_after m ρ)

end Cert.RefStages

end
-- ==== Proof.lean ====
/-
  A two-layer mean-aggregation graph network (two dense layers over node features and their neighbourhood means,
  `max · 0` after the first and a row-wise log-softmax after the second): the kernel program computes the gather,
  the scatter-adds and the in-degree on the host and each dense layer in a row-tiled launch; the reference computes
  everything on the host.  On the extended reals both are ONE function of the arguments, `Sage.network`
  (Proof/Spec.lean): the neighbourhood sums and the in-degree are the same host operations in both, the kernel's
  product with `1 / max d 1` is the reference's quotient by `max d 1` (the divisor is never zero), and the kernel's
  bias added last is the reference's bias added between the two sums.  No finiteness is used.

  The three frames are the generated ones (the reference's is its run with the result dropped); there is no ledger
  entry, so `preserves` is `True`; `algebraic` puts the kernel's run with its result named (Proof/KernelRun.lean,
  Proof/KernelValue.lean) beside the reference's run (Proof/RefStages.lean, Proof/RefValue.lean) at arguments that agree.
-/
import proofs.«112490_j9113920602386_1_alg».proof.Defs
import proofs.«112490_j9113920602386_1_alg».proof.Proof.Gen.Kernel
import proofs.«112490_j9113920602386_1_alg».proof.Proof.Gen.Kernel.Skeleton
import proofs.«112490_j9113920602386_1_alg».proof.Proof.Gen.Kernel.Launch
import proofs.«112490_j9113920602386_1_alg».proof.Proof.Gen.Kernel.Points
import proofs.«112490_j9113920602386_1_alg».proof.Proof.Gen.Kernel.Frame
import proofs.«112490_j9113920602386_1_alg».proof.Proof.Gen.KernelIdeal
import proofs.«112490_j9113920602386_1_alg».proof.Proof.Gen.KernelIdeal.Skeleton
import proofs.«112490_j9113920602386_1_alg».proof.Proof.Gen.KernelIdeal.Launch
import proofs.«112490_j9113920602386_1_alg».proof.Proof.Gen.KernelIdeal.Points
import proofs.«112490_j9113920602386_1_alg».proof.Proof.Gen.KernelIdeal.Frame
import proofs.«112490_j9113920602386_1_alg».proof.Proof.Gen.ReferenceIdeal
import proofs.«112490_j9113920602386_1_alg».proof.Proof.Gen.Pre_finite_inputs
import proofs.«112490_j9113920602386_1_alg».proof.Proof.KernelRun
import proofs.«112490_j9113920602386_1_alg».proof.Proof.KernelValue
import proofs.«112490_j9113920602386_1_alg».proof.Proof.RefValue
import proofs.«112490_j9113920602386_1_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefStages.run m ρ)

/-- Both programs end with the network of the arguments in their result arrays. -/
theorem algebraic : Cert.algebraic_KernelIdeal_ReferenceIdeal := by
  intro m ρ m' ρ' _ hagree
  refine ⟨fun c => Cert.Sage.network (Cert.Sage.Ops.Sop (Cert.KernelIdeal.Glue.eA m c)) (Cert.Sage.Ops.deg (Cert.KernelIdeal.Glue.eA m c))
      (Cert.KernelIdeal.Glue.xA m c) (Cert.KernelIdeal.Glue.w1l m c) (Cert.KernelIdeal.Glue.b1A m c) (Cert.KernelIdeal.Glue.w1r m c)
      (Cert.KernelIdeal.Glue.w2l m c) (Cert.KernelIdeal.Glue.b2A m c) (Cert.KernelIdeal.Glue.w2r m c), ?_, ?_⟩
  · exact (θ_run Cert.KernelIdeal.defs _ _).mono
      (fun r h c => ⟨(h c).1.trans (Cert.KernelIdeal.Result.result_value m ρ c), (h c).2⟩)
      (Cert.KernelIdeal.RunNamed.run_named (F := Ideal) m ρ)
  · refine (θ_run Cert.ReferenceIdeal.defs _ _).mono (fun _ h c => ⟨(h c).1.trans ?_, (h c).2⟩)
      (Cert.RefStages.run m' ρ')
    rw [Cert.RefValue.ref_value]
    obtain ⟨h0, h1, h2, h3, h4, h5, h6, h7⟩ := hagree c
    rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
